-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16x1 : Shape := ⟨3, ![50000, 16, 1]⟩
abbrev S3x50000x16x16 : Shape := ⟨4, ![3, 50000, 16, 16]⟩
abbrev S50000x16x3 : Shape := ⟨3, ![50000, 16, 3]⟩
abbrev S50000x16x9 : Shape := ⟨3, ![50000, 16, 9]⟩
abbrev S2x50000 : Shape := ⟨2, ![2, 50000]⟩
abbrev S2 : Shape := ⟨1, ![2]⟩
abbrev S_ : Shape := ⟨0, ![]⟩

class Facts : Prop where
  bcast_S_S50000x16x1 : S_.BroadcastsInDim S50000x16x1 (![] : Fin 0 → Fin S50000x16x1.rank)
  reducesTo_S50000x16x1_S_d0_1_2 : S50000x16x1.ReducesTo [0, 1, 2] S_
  h_S_ : 0 < S_.numel
  bcast_S_S3x50000x16x16 : S_.BroadcastsInDim S3x50000x16x16 (![] : Fin 0 → Fin S3x50000x16x16.rank)
  reducesTo_S3x50000x16x16_S_d0_1_2_3 : S3x50000x16x16.ReducesTo [0, 1, 2, 3] S_
  bcast_S_S50000x16x3 : S_.BroadcastsInDim S50000x16x3 (![] : Fin 0 → Fin S50000x16x3.rank)
  reducesTo_S50000x16x3_S_d0_1_2 : S50000x16x3.ReducesTo [0, 1, 2] S_
  bcast_S_S50000x16x9 : S_.BroadcastsInDim S50000x16x9 (![] : Fin 0 → Fin S50000x16x9.rank)
  reducesTo_S50000x16x9_S_d0_1_2 : S50000x16x9.ReducesTo [0, 1, 2] S_
  bcast_S_S2x50000 : S_.BroadcastsInDim S2x50000 (![] : Fin 0 → Fin S2x50000.rank)
  reducesTo_S2x50000_S_d0_1 : S2x50000.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2x50000 .f32) (main_arg12 : FVec F S2 .f32) (main_v48 : IVec S_ 1) (main_v49 : FVec F S50000x16x9 .f32) (main_v50 : FVec F S50000x16x9 .f32) : IVec S_ 1 :=
  let main_v51 : IVec S50000x16x9 1 := cmpf .olt main_v49 main_v50
  let main_c_19 : IVec S_ 1 := constantI S_ 1 1#1
  let main_v52 : IVec S_ 1 := (fun x v => Host.reduce IntOp.andi x v reducesTo_S50000x16x9_S_d0_1_2 h_S_) main_v51 main_c_19
  let main_v53 : IVec S_ 1 := andi main_v48 main_v52
  let main_v54 : FVec F S2x50000 .f32 := Host.absf main_arg11
  let main_cst_20 : FVec F S_ .f32 := constant S_ .f32 0x7F800000#32
  let main_v55 : FVec F S2x50000 .f32 := broadcastInDim S2x50000 ![] bcast_S_S2x50000 main_cst_20
  let main_v56 : IVec S2x50000 1 := cmpf .olt main_v54 main_v55
  let main_c_21 : IVec S_ 1 := constantI S_ 1 1#1
  let main_v57 : IVec S_ 1 := (fun x v => Host.reduce IntOp.andi x v reducesTo_S2x50000_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S50000x16x9 .f32) (main_arg8 : FVec F S50000x16x1 .f32) (main_arg9 : FVec F S50000x16x3 .f32) (main_arg10 : FVec F S50000x16x9 .f32) (main_arg11 : FVec F S2x50000 .f32) (main_arg12 : FVec F S2 .f32) (main_v33 : IVec S_ 1) : IVec S_ 1 :=
  let main_v34 : FVec F S50000x16x9 .f32 := Host.absf main_arg7
  let main_cst_12 : FVec F S_ .f32 := constant S_ .f32 0x7F800000#32
  let main_v35 : FVec F S50000x16x9 .f32 := broadcastInDim S50000x16x9 ![] bcast_S_S50000x16x9 main_cst_12
  let main_v36 : IVec S50000x16x9 1 := cmpf .olt main_v34 main_v35
  let main_c_13 : IVec S_ 1 := constantI S_ 1 1#1
  let main_v37 : IVec S_ 1 := (fun x v => Host.reduce IntOp.andi x v reducesTo_S50000x16x9_S_d0_1_2 h_S_) main_v36 main_c_13
  let main_v38 : IVec S_ 1 := andi main_v33 main_v37
  let main_v39 : FVec F S50000x16x1 .f32 := Host.absf main_arg8
  let main_cst_14 : FVec F S_ .f32 := constant S_ .f32 0x7F800000#32
  let main_v40 : FVec F S50000x16x1 .f32 := broadcastInDim S50000x16x1 ![] bcast_S_S50000x16x1 main_cst_14
  let main_v41 : IVec S50000x16x1 1 := cmpf .olt main_v39 main_v40
  let main_c_15 : IVec S_ 1 := constantI S_ 1 1#1
  let main_v42 : IVec S_ 1 := (fun x v => Host.reduce IntOp.andi x v reducesTo_S50000x16x1_S_d0_1_2 h_S_) main_v41 main_c_15
  let main_v43 : IVec S_ 1 := andi main_v38 main_v42
  let main_v44 : FVec F S50000x16x3 .f32 := Host.absf main_arg9
  let main_cst_16 : FVec F S_ .f32 := constant S_ .f32 0x7F800000#32
  let main_v45 : FVec F S50000x16x3 .f32 := broadcastInDim S50000x16x3 ![] bcast_S_S50000x16x3 main_cst_16
  let main_v46 : IVec S50000x16x3 1 := cmpf .olt main_v44 main_v45
  let main_c_17 : IVec S_ 1 := constantI S_ 1 1#1
  let main_v47 : IVec S_ 1 := (fun x v => Host.reduce IntOp.andi x v reducesTo_S50000x16x3_S_d0_1_2 h_S_) main_v46 main_c_17
  let main_v48 : IVec S_ 1 := andi main_v43 main_v47
  let main_v49 : FVec F S50000x16x9 .f32 := Host.absf main_arg10
  let main_cst_18 : FVec F S_ .f32 := constant S_ .f32 0x7F800000#32
  let main_v50 : FVec F S50000x16x9 .f32 := broadcastInDim S50000x16x9 ![] bcast_S_S50000x16x9 main_cst_18
  fn_part3 (F := F) main_arg11 main_arg12 main_v48 main_v49 main_v50

def fn_part1 {F : FTy → Type} [FloatOps F] (main_arg4 : FVec F S3x50000x16x16 .f32) (main_arg5 : FVec F S50000x16x1 .f32) (main_arg6 : FVec F S50000x16x3 .f32) (main_arg7 : FVec F S50000x16x9 .f32) (main_arg8 : FVec F S50000x16x1 .f32) (main_arg9 : FVec F S50000x16x3 .f32) (main_arg10 : FVec F S50000x16x9 .f32) (main_arg11 : FVec F S2x50000 .f32) (main_arg12 : FVec F S2 .f32) (main_v13 : IVec S_ 1) (main_v16 : IVec S3x50000x16x16 1) : IVec S_ 1 :=
  let main_c_5 : IVec S_ 1 := constantI S_ 1 1#1
  let main_v17 : IVec S_ 1 := (fun x v => Host.reduce IntOp.andi x v reducesTo_S3x50000x16x16_S_d0_1_2_3 h_S_) main_v16 main_c_5
  let main_v18 : IVec S_ 1 := andi main_v13 main_v17
  let main_v19 : FVec F S3x50000x16x16 .f32 := Host.absf main_arg4
  let main_cst_6 : FVec F S_ .f32 := constant S_ .f32 0x7F800000#32
  let main_v20 : FVec F S3x50000x16x16 .f32 := broadcastInDim S3x50000x16x16 ![] bcast_S_S3x50000x16x16 main_cst_6
  let main_v21 : IVec S3x50000x16x16 1 := cmpf .olt main_v19 main_v20
  let main_c_7 : IVec S_ 1 := constantI S_ 1 1#1
  let main_v22 : IVec S_ 1 := (fun x v => Host.reduce IntOp.andi x v reducesTo_S3x50000x16x16_S_d0_1_2_3 h_S_) main_v21 main_c_7
  let main_v23 : IVec S_ 1 := andi main_v18 main_v22
  let main_v24 : FVec F S50000x16x1 .f32 := Host.absf main_arg5
  let main_cst_8 : FVec F S_ .f32 := constant S_ .f32 0x7F800000#32
  let main_v25 : FVec F S50000x16x1 .f32 := broadcastInDim S50000x16x1 ![] bcast_S_S50000x16x1 main_cst_8
  let main_v26 : IVec S50000x16x1 1 := cmpf .olt main_v24 main_v25
  let main_c_9 : IVec S_ 1 := constantI S_ 1 1#1
  let main_v27 : IVec S_ 1 := (fun x v => Host.reduce IntOp.andi x v reducesTo_S50000x16x1_S_d0_1_2 h_S_) main_v26 main_c_9
  let main_v28 : IVec S_ 1 := andi main_v23 main_v27
  let main_v29 : FVec F S50000x16x3 .f32 := Host.absf main_arg6
  let main_cst_10 : FVec F S_ .f32 := constant S_ .f32 0x7F800000#32
  let main_v30 : FVec F S50000x16x3 .f32 := broadcastInDim S50000x16x3 ![] bcast_S_S50000x16x3 main_cst_10
  let main_v31 : IVec S50000x16x3 1 := cmpf .olt main_v29 main_v30
  let main_c_11 : IVec S_ 1 := constantI S_ 1 1#1
  let main_v32 : IVec S_ 1 := (fun x v => Host.reduce IntOp.andi x v reducesTo_S50000x16x3_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x16x1 .f32) (main_arg1 : FVec F S3x50000x16x16 .f32) (main_arg2 : FVec F S3x50000x16x16 .f32) (main_arg3 : FVec F S3x50000x16x16 .f32) (main_arg4 : FVec F S3x50000x16x16 .f32) (main_arg5 : FVec F S50000x16x1 .f32) (main_arg6 : FVec F S50000x16x3 .f32) (main_arg7 : FVec F S50000x16x9 .f32) (main_arg8 : FVec F S50000x16x1 .f32) (main_arg9 : FVec F S50000x16x3 .f32) (main_arg10 : FVec F S50000x16x9 .f32) (main_arg11 : FVec F S2x50000 .f32) (main_arg12 : FVec F S2 .f32) : IVec S_ 1 :=
  let main_v0 : FVec F S50000x16x1 .f32 := Host.absf main_arg0
  let main_cst : FVec F S_ .f32 := constant S_ .f32 0x7F800000#32
  let main_v1 : FVec F S50000x16x1 .f32 := broadcastInDim S50000x16x1 ![] bcast_S_S50000x16x1 main_cst
  let main_v2 : IVec S50000x16x1 1 := cmpf .olt main_v0 main_v1
  let main_c : IVec S_ 1 := constantI S_ 1 1#1
  let main_v3 : IVec S_ 1 := (fun x v => Host.reduce IntOp.andi x v reducesTo_S50000x16x1_S_d0_1_2 h_S_) main_v2 main_c
  let main_v4 : FVec F S3x50000x16x16 .f32 := Host.absf main_arg1
  let main_cst_0 : FVec F S_ .f32 := constant S_ .f32 0x7F800000#32
  let main_v5 : FVec F S3x50000x16x16 .f32 := broadcastInDim S3x50000x16x16 ![] bcast_S_S3x50000x16x16 main_cst_0
  let main_v6 : IVec S3x50000x16x16 1 := cmpf .olt main_v4 main_v5
  let main_c_1 : IVec S_ 1 := constantI S_ 1 1#1
  let main_v7 : IVec S_ 1 := (fun x v => Host.reduce IntOp.andi x v reducesTo_S3x50000x16x16_S_d0_1_2_3 h_S_) main_v6 main_c_1
  let main_v8 : IVec S_ 1 := andi main_v3 main_v7
  let main_v9 : FVec F S3x50000x16x16 .f32 := Host.absf main_arg2
  let main_cst_2 : FVec F S_ .f32 := constant S_ .f32 0x7F800000#32
  let main_v10 : FVec F S3x50000x16x16 .f32 := broadcastInDim S3x50000x16x16 ![] bcast_S_S3x50000x16x16 main_cst_2
  let main_v11 : IVec S3x50000x16x16 1 := cmpf .olt main_v9 main_v10
  let main_c_3 : IVec S_ 1 := constantI S_ 1 1#1
  let main_v12 : IVec S_ 1 := (fun x v => Host.reduce IntOp.andi x v reducesTo_S3x50000x16x16_S_d0_1_2_3 h_S_) main_v11 main_c_3
  let main_v13 : IVec S_ 1 := andi main_v8 main_v12
  let main_v14 : FVec F S3x50000x16x16 .f32 := Host.absf main_arg3
  let main_cst_4 : FVec F S_ .f32 := constant S_ .f32 0x7F800000#32
  let main_v15 : FVec F S3x50000x16x16 .f32 := broadcastInDim S3x50000x16x16 ![] bcast_S_S3x50000x16x16 main_cst_4
  let main_v16 : IVec S3x50000x16x16 1 := cmpf .olt main_v14 main_v15
  fn_part1 (F := F) main_arg4 main_arg5 main_arg6 main_arg7 main_arg8 main_arg9 main_arg10 main_arg11 main_arg12 main_v13 main_v16
-- ==== Kernel.lean ====
abbrev S50000x16x1 : Shape := ⟨3, ![50000, 16, 1]⟩
abbrev S3x50000x16x16 : Shape := ⟨4, ![3, 50000, 16, 16]⟩
abbrev S50000x16x3 : Shape := ⟨3, ![50000, 16, 3]⟩
abbrev S50000x16x9 : Shape := ⟨3, ![50000, 16, 9]⟩
abbrev S2x50000 : Shape := ⟨2, ![2, 50000]⟩
abbrev S2 : Shape := ⟨1, ![2]⟩
abbrev S16x256 : Shape := ⟨2, ![16, 256]⟩
abbrev S256x16 : Shape := ⟨2, ![256, 16]⟩
abbrev S50000x16 : Shape := ⟨2, ![50000, 16]⟩
abbrev S3x50000x256 : Shape := ⟨3, ![3, 50000, 256]⟩
abbrev S25x1x2000 : Shape := ⟨3, ![25, 1, 2000]⟩
abbrev S2000x16 : Shape := ⟨2, ![2000, 16]⟩
abbrev S1x2000x256 : Shape := ⟨3, ![1, 2000, 256]⟩
abbrev S1x1x2000 : Shape := ⟨3, ![1, 1, 2000]⟩
abbrev S2000x256 : Shape := ⟨2, ![2000, 256]⟩
abbrev S2000 : Shape := ⟨1, ![2000]⟩
abbrev S50000 : Shape := ⟨1, ![50000]⟩
abbrev S1x50000 : Shape := ⟨2, ![1, 50000]⟩
abbrev S50000x2 : Shape := ⟨2, ![50000, 2]⟩
abbrev S1x2 : Shape := ⟨2, ![1, 2]⟩

abbrev nBuf : Space → Nat
  | .hbm => 29
  | .vmem => 18
  | .smem => 0
  | _ => 0

abbrev bufTy : (tb : Table) → Fin (tcTables nBuf tb) → BufTy
  | .hbm, ⟨0, _⟩ => ⟨S50000x16x1, .f32⟩
  | .hbm, ⟨1, _⟩ => ⟨S3x50000x16x16, .f32⟩
  | .hbm, ⟨2, _⟩ => ⟨S3x50000x16x16, .f32⟩
  | .hbm, ⟨3, _⟩ => ⟨S3x50000x16x16, .f32⟩
  | .hbm, ⟨4, _⟩ => ⟨S3x50000x16x16, .f32⟩
  | .hbm, ⟨5, _⟩ => ⟨S50000x16x1, .f32⟩
  | .hbm, ⟨6, _⟩ => ⟨S50000x16x3, .f32⟩
  | .hbm, ⟨7, _⟩ => ⟨S50000x16x9, .f32⟩
  | .hbm, ⟨8, _⟩ => ⟨S50000x16x1, .f32⟩
  | .hbm, ⟨9, _⟩ => ⟨S50000x16x3, .f32⟩
  | .hbm, ⟨10, _⟩ => ⟨S50000x16x9, .f32⟩
  | .hbm, ⟨11, _⟩ => ⟨S2x50000, .f32⟩
  | .hbm, ⟨12, _⟩ => ⟨S2, .f32⟩
  | .hbm, ⟨13, _⟩ => ⟨S16x256, .f32⟩
  | .hbm, ⟨14, _⟩ => ⟨S256x16, .f32⟩
  | .hbm, ⟨15, _⟩ => ⟨S50000x16, .f32⟩
  | .hbm, ⟨16, _⟩ => ⟨S50000x16, .f32⟩
  | .hbm, ⟨17, _⟩ => ⟨S50000x16, .f32⟩
  | .hbm, ⟨18, _⟩ => ⟨S3x50000x256, .f32⟩
  | .hbm, ⟨19, _⟩ => ⟨S3x50000x256, .f32⟩
  | .hbm, ⟨20, _⟩ => ⟨S3x50000x256, .f32⟩
  | .hbm, ⟨21, _⟩ => ⟨S3x50000x256, .f32⟩
  | .hbm, ⟨22, _⟩ => ⟨S25x1x2000, .f32⟩
  | .hbm, ⟨23, _⟩ => ⟨S50000, .f32⟩
  | .hbm, ⟨24, _⟩ => ⟨S1x50000, .f32⟩
  | .hbm, ⟨25, _⟩ => ⟨S50000x2, .f32⟩
  | .hbm, ⟨26, _⟩ => ⟨S1x2, .f32⟩
  | .hbm, ⟨27, _⟩ => ⟨S1x2, .f32⟩
  | .hbm, ⟨28, _⟩ => ⟨S1x2, .f32⟩
  | .local _ .vmem, ⟨0, _⟩ => ⟨S2000x16, .f32⟩
  | .local _ .vmem, ⟨1, _⟩ => ⟨S2000x16, .f32⟩
  | .local _ .vmem, ⟨2, _⟩ => ⟨S1x2000x256, .f32⟩
  | .local _ .vmem, ⟨3, _⟩ => ⟨S1x2000x256, .f32⟩
  | .local _ .vmem, ⟨4, _⟩ => ⟨S1x2000x256, .f32⟩
  | .local _ .vmem, ⟨5, _⟩ => ⟨S1x2000x256, .f32⟩
  | .local _ .vmem, ⟨6, _⟩ => ⟨S1x2000x256, .f32⟩
  | .local _ .vmem, ⟨7, _⟩ => ⟨S1x2000x256, .f32⟩
  | .local _ .vmem, ⟨8, _⟩ => ⟨S1x2000x256, .f32⟩
  | .local _ .vmem, ⟨9, _⟩ => ⟨S1x2000x256, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S16x256, .f32⟩
  | .local _ .vmem, ⟨15, _⟩ => ⟨S256x16, .f32⟩
  | .local _ .vmem, ⟨16, _⟩ => ⟨S1x1x2000, .f32⟩
  | .local _ .vmem, ⟨17, _⟩ => ⟨S1x1x2000, .f32⟩
  | _, _ => ⟨S50000x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S50000x16x1_S50000x16 : S50000x16x1.ShapeCasts S50000x16
  shapeCasts_S3x50000x16x16_S3x50000x256 : S3x50000x16x16.ShapeCasts S3x50000x256
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  reduces_S2000x16_S2000 : S2000x16.Reduces [1] S2000
  shapeCasts_S2000_S1x1x2000 : S2000.ShapeCasts S1x1x2000
  inb_S1x1x2000_S1x1x2000_0_0_0 : ∀ a, (![0, 0, 0] : Fin 3 → Nat) a + S1x1x2000.size a ≤ S1x1x2000.size a
  h_S1x1x2000 : 0 < S1x1x2000.numel
  shapeCasts_S25x1x2000_S50000 : S25x1x2000.ShapeCasts S50000
  shapeCasts_S50000_S1x50000 : S50000.ShapeCasts S1x50000
  transposes_S2x50000_S50000x2_1_0 : S2x50000.Transposes [1, 0] S50000x2
  bcast_S2_S1x2_1 : S2.BroadcastsInDim S1x2 (![1] : Fin 1 → Fin S1x2.rank)
  dot_S2000x16_S16x256_S2000x256_1_0_0_1_n_n_wf : DotDims.WF S2000x16 S16x256 S2000x256 [1] [0] [0] [1] [] []
  dot_S2000x256_S256x16_S2000x16_1_0_0_1_n_n_wf : DotDims.WF S2000x256 S256x16 S2000x16 [1] [0] [0] [1] [] []
  dot_S1x50000_S50000x2_S1x2_1_0_0_1_n_n_wf : DotDims.WF S1x50000 S50000x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x256.size a ≤ S3x50000x256.size a
  hwx0_1 : ∀ i : grid0.Coords, EltTy.bits .f32 = 32 ∨ (Rect.block (s := S3x50000x256) S1x2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x256.size a ≤ S3x50000x256.size a
  hwx0_2 : ∀ i : grid0.Coords, EltTy.bits .f32 = 32 ∨ (Rect.block (s := S3x50000x256) S1x2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x256.size a ≤ S3x50000x256.size a
  hwx0_3 : ∀ i : grid0.Coords, EltTy.bits .f32 = 32 ∨ (Rect.block (s := S3x50000x256) S1x2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2000x256.size a ≤ S3x50000x256.size a
  hwx0_4 : ∀ i : grid0.Coords, EltTy.bits .f32 = 32 ∨ (Rect.block (s := S3x50000x256) S1x2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S50000x16.size a
  hwx0_5 : ∀ i : grid0.Coords, EltTy.bits .f32 = 32 ∨ (Rect.block (s := S50000x16) S2000x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x16.size a ≤ S50000x16.size a
  hwx0_6 : ∀ i : grid0.Coords, EltTy.bits .f32 = 32 ∨ (Rect.block (s := S50000x16) S2000x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .f32 = 32 ∨ (Rect.block (s := S16x256) S16x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x16.size a ≤ S256x16.size a
  hwx0_8 : ∀ i : grid0.Coords, EltTy.bits .f32 = 32 ∨ (Rect.block (s := S256x16) S256x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2000.size a ≤ S25x1x2000.size a
  hwx0_9 : ∀ i : grid0.Coords, EltTy.bits .f32 = 32 ∨ (Rect.block (s := S25x1x2000) S1x1x2000.size (cc0_transform_9 i) (hinb0_9 i)).WholeWords (EltTy.packing .f32)

variable [Facts₀]

def dot_S2000x16_S16x256_S2000x256_1_0_0_1_n_n : DotDims S2000x16 S16x256 S2000x256 where
  lhsContracting := [1]
  rhsContracting := [0]
  lhsNonContracting := [0]
  rhsNonContracting := [1]
  lhsBatch := []
  rhsBatch := []
  wf := dot_S2000x16_S16x256_S2000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def dot_S1x50000_S50000x2_S1x2_1_0_0_1_n_n : DotDims S1x50000 S50000x2 S1x2 where
  lhsContracting := [1]
  rhsContracting := [0]
  lhsNonContracting := [0]
  rhsNonContracting := [1]
  lhsBatch := []
  rhsBatch := []
  wf := dot_S1x50000_S50000x2_S1x2_1_0_0_1_n_n_wf

abbrev win0_0 : Pipeline.Window sig grid0 :=
  Pipeline.Window.ofSpec (Memref.whole main_v0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2000x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2000x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_cst) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_0) S256x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1x2000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x16x1 : Shape := ⟨3, ![50000, 16, 1]⟩
abbrev S3x50000x16x16 : Shape := ⟨4, ![3, 50000, 16, 16]⟩
abbrev S50000x16x3 : Shape := ⟨3, ![50000, 16, 3]⟩
abbrev S50000x16x9 : Shape := ⟨3, ![50000, 16, 9]⟩
abbrev S2x50000 : Shape := ⟨2, ![2, 50000]⟩
abbrev S2 : Shape := ⟨1, ![2]⟩
abbrev S_ : Shape := ⟨0, ![]⟩
abbrev S1x50000x16x16 : Shape := ⟨4, ![1, 50000, 16, 16]⟩
abbrev S50000x16x16 : Shape := ⟨3, ![50000, 16, 16]⟩
abbrev S50000x1 : Shape := ⟨2, ![50000, 1]⟩
abbrev S1x50000 : Shape := ⟨2, ![1, 50000]⟩
abbrev S50000x2 : Shape := ⟨2, ![50000, 2]⟩
abbrev S1x2 : Shape := ⟨2, ![1, 2]⟩

abbrev nBuf : Space → Nat
  | .hbm => 66
  | .vmem => 0
  | .smem => 0
  | _ => 0

abbrev bufTy : (tb : Table) → Fin (tcTables nBuf tb) → BufTy
  | .hbm, ⟨0, _⟩ => ⟨S50000x16x1, .f32⟩
  | .hbm, ⟨1, _⟩ => ⟨S3x50000x16x16, .f32⟩
  | .hbm, ⟨2, _⟩ => ⟨S3x50000x16x16, .f32⟩
  | .hbm, ⟨3, _⟩ => ⟨S3x50000x16x16, .f32⟩
  | .hbm, ⟨4, _⟩ => ⟨S3x50000x16x16, .f32⟩
  | .hbm, ⟨5, _⟩ => ⟨S50000x16x1, .f32⟩
  | .hbm, ⟨6, _⟩ => ⟨S50000x16x3, .f32⟩
  | .hbm, ⟨7, _⟩ => ⟨S50000x16x9, .f32⟩
  | .hbm, ⟨8, _⟩ => ⟨S50000x16x1, .f32⟩
  | .hbm, ⟨9, _⟩ => ⟨S50000x16x3, .f32⟩
  | .hbm, ⟨10, _⟩ => ⟨S50000x16x9, .f32⟩
  | .hbm, ⟨11, _⟩ => ⟨S2x50000, .f32⟩
  | .hbm, ⟨12, _⟩ => ⟨S2, .f32⟩
  | .hbm, ⟨13, _⟩ => ⟨S_, .f32⟩
  | .hbm, ⟨14, _⟩ => ⟨S50000x16x3, .f32⟩
  | .hbm, ⟨15, _⟩ => ⟨S_, .f32⟩
  | .hbm, ⟨16, _⟩ => ⟨S50000x16x9, .f32⟩
  | .hbm, ⟨17, _⟩ => ⟨S1x50000x16x16, .f32⟩
  | .hbm, ⟨18, _⟩ => ⟨S50000x16x16, .f32⟩
  | .hbm, ⟨19, _⟩ => ⟨S50000x16x1, .f32⟩
  | .hbm, ⟨20, _⟩ => ⟨S1x50000x16x16, .f32⟩
  | .hbm, ⟨21, _⟩ => ⟨S50000x16x16, .f32⟩
  | .hbm, ⟨22, _⟩ => ⟨S50000x16x1, .f32⟩
  | .hbm, ⟨23, _⟩ => ⟨S50000x16x1, .f32⟩
  | .hbm, ⟨24, _⟩ => ⟨S1x50000x16x16, .f32⟩
  | .hbm, ⟨25, _⟩ => ⟨S50000x16x16, .f32⟩
  | .hbm, ⟨26, _⟩ => ⟨S50000x16x3, .f32⟩
  | .hbm, ⟨27, _⟩ => ⟨S1x50000x16x16, .f32⟩
  | .hbm, ⟨28, _⟩ => ⟨S50000x16x16, .f32⟩
  | .hbm, ⟨29, _⟩ => ⟨S50000x16x3, .f32⟩
  | .hbm, ⟨30, _⟩ => ⟨S50000x16x3, .f32⟩
  | .hbm, ⟨31, _⟩ => ⟨S1x50000x16x16, .f32⟩
  | .hbm, ⟨32, _⟩ => ⟨S50000x16x16, .f32⟩
  | .hbm, ⟨33, _⟩ => ⟨S50000x16x9, .f32⟩
  | .hbm, ⟨34, _⟩ => ⟨S1x50000x16x16, .f32⟩
  | .hbm, ⟨35, _⟩ => ⟨S50000x16x16, .f32⟩
  | .hbm, ⟨36, _⟩ => ⟨S50000x16x9, .f32⟩
  | .hbm, ⟨37, _⟩ => ⟨S50000x16x9, .f32⟩
  | .hbm, ⟨38, _⟩ => ⟨S1x50000x16x16, .f32⟩
  | .hbm, ⟨39, _⟩ => ⟨S50000x16x16, .f32⟩
  | .hbm, ⟨40, _⟩ => ⟨S50000x16x1, .f32⟩
  | .hbm, ⟨41, _⟩ => ⟨S1x50000x16x16, .f32⟩
  | .hbm, ⟨42, _⟩ => ⟨S50000x16x16, .f32⟩
  | .hbm, ⟨43, _⟩ => ⟨S50000x16x1, .f32⟩
  | .hbm, ⟨44, _⟩ => ⟨S50000x16x1, .f32⟩
  | .hbm, ⟨45, _⟩ => ⟨S1x50000x16x16, .f32⟩
  | .hbm, ⟨46, _⟩ => ⟨S50000x16x16, .f32⟩
  | .hbm, ⟨47, _⟩ => ⟨S50000x16x3, .f32⟩
  | .hbm, ⟨48, _⟩ => ⟨S1x50000x16x16, .f32⟩
  | .hbm, ⟨49, _⟩ => ⟨S50000x16x16, .f32⟩
  | .hbm, ⟨50, _⟩ => ⟨S50000x16x3, .f32⟩
  | .hbm, ⟨51, _⟩ => ⟨S50000x16x3, .f32⟩
  | .hbm, ⟨52, _⟩ => ⟨S1x50000x16x16, .f32⟩
  | .hbm, ⟨53, _⟩ => ⟨S50000x16x16, .f32⟩
  | .hbm, ⟨54, _⟩ => ⟨S50000x16x9, .f32⟩
  | .hbm, ⟨55, _⟩ => ⟨S1x50000x16x16, .f32⟩
  | .hbm, ⟨56, _⟩ => ⟨S50000x16x16, .f32⟩
  | .hbm, ⟨57, _⟩ => ⟨S50000x16x9, .f32⟩
  | .hbm, ⟨58, _⟩ => ⟨S50000x16x9, .f32⟩
  | .hbm, ⟨59, _⟩ => ⟨S_, .f32⟩
  | .hbm, ⟨60, _⟩ => ⟨S50000x1, .f32⟩
  | .hbm, ⟨61, _⟩ => ⟨S1x50000, .f32⟩
  | .hbm, ⟨62, _⟩ => ⟨S50000x2, .f32⟩
  | .hbm, ⟨63, _⟩ => ⟨S1x2, .f32⟩
  | .hbm, ⟨64, _⟩ => ⟨S1x2, .f32⟩
  | .hbm, ⟨65, _⟩ => ⟨S1x2, .f32⟩
  | _, _ => ⟨S50000x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  bcast_S_S50000x16x3 : S_.BroadcastsInDim S50000x16x3 (![] : Fin 0 → Fin S50000x16x3.rank)
  bcast_S_S50000x16x9 : S_.BroadcastsInDim S50000x16x9 (![] : Fin 0 → Fin S50000x16x9.rank)
  slices_S3x50000x16x16_S1x50000x16x16_0_0_0_0 : S3x50000x16x16.Slices ![0, 0, 0, 0] S1x50000x16x16
  shapeCasts_S1x50000x16x16_S50000x16x16 : S1x50000x16x16.ShapeCasts S50000x16x16
  slices_S3x50000x16x16_S1x50000x16x16_1_0_0_0 : S3x50000x16x16.Slices ![1, 0, 0, 0] S1x50000x16x16
  slices_S3x50000x16x16_S1x50000x16x16_2_0_0_0 : S3x50000x16x16.Slices ![2, 0, 0, 0] S1x50000x16x16
  reducesTo_S50000x16x1_S50000x1_d1 : S50000x16x1.ReducesTo [1] S50000x1
  h_S_ : 0 < S_.numel
  transposes_S50000x1_S1x50000_1_0 : S50000x1.Transposes [1, 0] S1x50000
  transposes_S2x50000_S50000x2_1_0 : S2x50000.Transposes [1, 0] S50000x2
  bcast_S2_S1x2_1 : S2.BroadcastsInDim S1x2 (![1] : Fin 1 → Fin S1x2.rank)
  dot_S50000x16x16_S50000x16x1_S50000x16x1_2_1_1_2_0_0_wf : DotDims.WF S50000x16x16 S50000x16x1 S50000x16x1 [2] [1] [1] [2] [0] [0]
  dot_S50000x16x16_S50000x16x3_S50000x16x3_2_1_1_2_0_0_wf : DotDims.WF S50000x16x16 S50000x16x3 S50000x16x3 [2] [1] [1] [2] [0] [0]
  dot_S50000x16x16_S50000x16x9_S50000x16x9_2_1_1_2_0_0_wf : DotDims.WF S50000x16x16 S50000x16x9 S50000x16x9 [2] [1] [1] [2] [0] [0]
  dot_S1x50000_S50000x2_S1x2_1_0_0_1_n_n_wf : DotDims.WF S1x50000 S50000x2 S1x2 [1] [0] [0] [1] [] []

variable [Facts₀]

def dot_S50000x16x16_S50000x16x1_S50000x16x1_2_1_1_2_0_0 : DotDims S50000x16x16 S50000x16x1 S50000x16x1 where
  lhsContracting := [2]
  rhsContracting := [1]
  lhsNonContracting := [1]
  rhsNonContracting := [2]
  lhsBatch := [0]
  rhsBatch := [0]
  wf := dot_S50000x16x16_S50000x16x1_S50000x16x1_2_1_1_2_0_0_wf
def dot_S50000x16x16_S50000x16x3_S50000x16x3_2_1_1_2_0_0 : DotDims S50000x16x16 S50000x16x3 S50000x16x3 where
  lhsContracting := [2]
  rhsContracting := [1]
  lhsNonContracting := [1]
  rhsNonContracting := [2]
  lhsBatch := [0]
  rhsBatch := [0]
  wf := dot_S50000x16x16_S50000x16x3_S50000x16x3_2_1_1_2_0_0_wf
def dot_S50000x16x16_S50000x16x9_S50000x16x9_2_1_1_2_0_0 : DotDims S50000x16x16 S50000x16x9 S50000x16x9 where
  lhsContracting := [2]
  rhsContracting := [1]
  lhsNonContracting := [1]
  rhsNonContracting := [2]
  lhsBatch := [0]
  rhsBatch := [0]
  wf := dot_S50000x16x16_S50000x16x9_S50000x16x9_2_1_1_2_0_0_wf
def dot_S1x50000_S50000x2_S1x2_1_0_0_1_n_n : DotDims S1x50000 S50000x2 S1x2 where
  lhsContracting := [1]
  rhsContracting := [0]
  lhsNonContracting := [0]
  rhsNonContracting := [1]
  lhsBatch := []
  rhsBatch := []
  wf := dot_S1x50000_S50000x2_S1x2_1_0_0_1_n_n_wf

class Facts : Prop extends Facts₀ where

variable [Facts]
-- ==== Proof.Spec.lean ====
/-
  The mathematics of the certificate, over the extended reals, with no program in sight.

  A node n carries 16 channels. One mixing layer sends a channel vector h and a message vector msg to
    j ↦ (Σ_k cw j k · h k) + (Σ_k mw j k · msg k).
  The node's value is the sum over the 16 output channels of two such layers, one after the other.

  The tiled program computes the same layer on weights laid out flat (256 = 16·16 entries per node):
  it spreads h over 256 lanes by a product with the matrix T k m = [m mod 16 = k], multiplies lane by lane,
  and gathers 16 consecutive lanes by a product with R m j = [m div 16 = j]. Multiplying by an entry that is
  0 or 1 and adding zeros is exact on the extended reals, and a finite sum of sums may be split, so the two
  spellings agree with no finiteness assumption.
-/
import Idealize.ShloMosaic.PureOps.Ideal.Laws
import Idealize.ShloMosaic.Lib.ValueIdx
import Mathlib.Algebra.BigOperators.Fin
import Mathlib.Logic.Equiv.Fin.Basic

noncomputable section

open scoped BigOperators

namespace MaceSpec

open Idealize.ShloMosaic Idealize.ShloMosaic.ValueIdx

/-- One mixing layer on the 16 channels of one node. -/
def layer (cw mw : Fin 16 → Fin 16 → EReal) (h msg : Fin 16 → EReal) (j : Fin 16) : EReal :=
  (∑ k : Fin 16, cw j k * h k) + ∑ k : Fin 16, mw j k * msg k

/-- Two layers and the sum over the output channels. -/
def twoLayers (cw0 mw0 cw1 mw1 : Fin 16 → Fin 16 → EReal) (h0 msg0 msg1 : Fin 16 → EReal) : EReal :=
  ∑ j : Fin 16, layer cw1 mw1 (layer cw0 mw0 h0 msg0) msg1 j

/-- The shape of a state or message array: nodes × channels × 1. -/
abbrev SH : Shape := ⟨3, ![50000, 16, 1]⟩
/-- The shape of a weight array: rank × nodes × channels × channels. -/
abbrev SW : Shape := ⟨4, ![3, 50000, 16, 16]⟩
/-- The shape of the row of node values. -/
abbrev SX : Shape := ⟨2, ![1, 50000]⟩

/-- The value of node n: only rank 0 of each weight array is read. -/
def nodeVal (h0 msg0 msg1 : SH.Idx → EReal) (cw0 mw0 cw1 mw1 : SW.Idx → EReal) (n : Fin 50000) : EReal :=
  twoLayers (fun a b => cw0 (ix4 (0 : Fin 3) n a b)) (fun a b => mw0 (ix4 (0 : Fin 3) n a b))
    (fun a b => cw1 (ix4 (0 : Fin 3) n a b)) (fun a b => mw1 (ix4 (0 : Fin 3) n a b))
    (fun k => h0 (ix3 n k (0 : Fin 1))) (fun k => msg0 (ix3 n k (0 : Fin 1))) (fun k => msg1 (ix3 n k (0 : Fin 1)))

/-- The row of all node values. -/
def G (h0 msg0 msg1 : SH.Idx → EReal) (cw0 mw0 cw1 mw1 : SW.Idx → EReal) : SX.Idx → EReal :=
  fun i => nodeVal h0 msg0 msg1 cw0 mw0 cw1 mw1 (i 1)

theorem G_ix2 (h0 msg0 msg1 : SH.Idx → EReal) (cw0 mw0 cw1 mw1 : SW.Idx → EReal) (a : Fin 1) (n : Fin 50000) :
    G h0 msg0 msg1 cw0 mw0 cw1 mw1 (ix2 a n) = nodeVal h0 msg0 msg1 cw0 mw0 cw1 mw1 n := rfl

/-! ## The flat spelling -/

/-- The same layer on flat weights, through the spreading matrix T and the gathering matrix R. -/
def flatLayer (T : Fin 16 → Fin 256 → EReal) (R : Fin 256 → Fin 16 → EReal) (cw mw : Fin 256 → EReal)
    (h msg : Fin 16 → EReal) (j : Fin 16) : EReal :=
  ∑ mm : Fin 256, (cw mm * (∑ k : Fin 16, h k * T k mm) + mw mm * (∑ k : Fin 16, msg k * T k mm)) * R mm j

/-- Two flat layers and the sum over the output channels. -/
def flatTwoLayers (T : Fin 16 → Fin 256 → EReal) (R : Fin 256 → Fin 16 → EReal) (cw0 mw0 cw1 mw1 : Fin 256 → EReal)
    (h0 msg0 msg1 : Fin 16 → EReal) : EReal :=
  ∑ j : Fin 16, flatLayer T R cw1 mw1 (flatLayer T R cw0 mw0 h0 msg0) msg1 j

/-- T spreads: lane m of the result reads channel m mod 16. -/
def IsTile (T : Fin 16 → Fin 256 → EReal) : Prop := ∀ k mm, T k mm = if mm.val % 16 = k.val then 1 else 0
/-- R gathers: channel j of the result sums lanes 16 j … 16 j + 15. -/
def IsGather (R : Fin 256 → Fin 16 → EReal) : Prop := ∀ mm j, R mm j = if mm.val / 16 = j.val then 1 else 0

/-- A flat row of 256 weights as a 16 × 16 matrix, row-major. -/
def unflat (f : Fin 256 → EReal) : Fin 16 → Fin 16 → EReal :=
  fun a b => f ⟨16 * a.val + b.val, by have := a.isLt; have := b.isLt; omega⟩

theorem tile_sum {T : Fin 16 → Fin 256 → EReal} (hT : IsTile T) (f : Fin 16 → EReal) (mm : Fin 256) :
    ∑ k : Fin 16, f k * T k mm = f ⟨mm.val % 16, Nat.mod_lt _ (by norm_num)⟩ := by
  rw [Finset.sum_eq_single (⟨mm.val % 16, Nat.mod_lt _ (by norm_num)⟩ : Fin 16)]
  · rw [hT, if_pos rfl, mul_one]
  · intro k _ hk
    rw [hT, if_neg, mul_zero]
    intro h
    exact hk (Fin.ext h.symm)
  · intro h; exact absurd (Finset.mem_univ _) h

theorem gather_sum {R : Fin 256 → Fin 16 → EReal} (hR : IsGather R) (g : Fin 256 → EReal) (j : Fin 16) :
    ∑ mm : Fin 256, g mm * R mm j = ∑ k : Fin 16, g ⟨16 * j.val + k.val, by have := j.isLt; have := k.isLt; omega⟩ := by
  rw [← Equiv.sum_comp (finProdFinEquiv : Fin 16 × Fin 16 ≃ Fin 256), Fintype.sum_prod_type]
  rw [Finset.sum_eq_single j]
  · refine Finset.sum_congr rfl fun b _ => ?_
    have hv : (finProdFinEquiv (j, b) : Fin 256).val = 16 * j.val + b.val := by
      show b.val + 16 * j.val = _; omega
    rw [hR, if_pos (by rw [hv]; have := b.isLt; omega), mul_one]
    exact congrArg g (Fin.ext hv)
  · intro a _ ha
    refine Finset.sum_eq_zero fun b _ => ?_
    have hv : (finProdFinEquiv (a, b) : Fin 256).val = b.val + 16 * a.val := rfl
    rw [hR, if_neg, mul_zero]
    rw [hv]; intro h
    exact ha (Fin.ext (by have := b.isLt; omega))
  · intro h; exact absurd (Finset.mem_univ _) h

theorem flatLayer_eq {T : Fin 16 → Fin 256 → EReal} {R : Fin 256 → Fin 16 → EReal} (hT : IsTile T) (hR : IsGather R)
    (cw mw : Fin 256 → EReal) (h msg : Fin 16 → EReal) (j : Fin 16) :
    flatLayer T R cw mw h msg j = layer (unflat cw) (unflat mw) h msg j := by
  unfold flatLayer layer
  rw [gather_sum hR, ← Finset.sum_add_distrib]
  refine Finset.sum_congr rfl fun k _ => ?_
  rw [tile_sum hT, tile_sum hT]
  have hk : (⟨(16 * j.val + k.val) % 16, Nat.mod_lt _ (by norm_num)⟩ : Fin 16) = k :=
    Fin.ext (by show (16 * j.val + k.val) % 16 = k.val; have := k.isLt; omega)
  show cw ⟨16 * j.val + k.val, _⟩ * h ⟨(16 * j.val + k.val) % 16, _⟩ + mw ⟨16 * j.val + k.val, _⟩ * msg ⟨(16 * j.val + k.val) % 16, _⟩ = _
  rw [hk]
  rfl

theorem flatTwoLayers_eq {T : Fin 16 → Fin 256 → EReal} {R : Fin 256 → Fin 16 → EReal} (hT : IsTile T) (hR : IsGather R)
    (cw0 mw0 cw1 mw1 : Fin 256 → EReal) (h0 msg0 msg1 : Fin 16 → EReal) :
    flatTwoLayers T R cw0 mw0 cw1 mw1 h0 msg0 msg1
      = twoLayers (unflat cw0) (unflat mw0) (unflat cw1) (unflat mw1) h0 msg0 msg1 := by
  unfold flatTwoLayers twoLayers
  refine Finset.sum_congr rfl fun j _ => ?_
  rw [flatLayer_eq hT hR]
  exact congrArg (fun hh => layer (unflat cw1) (unflat mw1) hh msg1 j) (funext fun k => flatLayer_eq hT hR cw0 mw0 h0 msg0 k)

end MaceSpec

end
-- ==== Proof.Lits.lean ====
/-
  The two constant matrices of the tiled program, read entry by entry.
-/
import proofs.«403991_j52510270161489_4_alg».proof.KernelIdeal
import proofs.«403991_j52510270161489_4_alg».proof.Proof.Spec
import Idealize.ShloMosaic.Lib.ValueIdx
import Idealize.ShloMosaic.Lib.IdealHost
import Idealize.ShloMosaic.PureOps.Ideal.Laws

noncomputable section

namespace Cert.KernelIdeal.Lits

open Idealize.ShloMosaic Idealize.ShloMosaic.ValueIdx Cert.KernelIdeal

/-- The words of the first table: at flat position i = 256 k + m the word is the pattern of 1 exactly when
    m mod 16 = k, and the pattern of 0 otherwise. A finite check over the 4096 positions, on words only. -/
private theorem lit0t_bits : ∀ i, i < 4096 →
    lit0t i = if (i % 256) % 16 = i / 256 then 0x3F800000#32 else 0x00000000#32 := by
  set_option maxRecDepth 100000 in decide +kernel

/-- The words of the second table: at flat position i = 16 m + j the word is the pattern of 1 exactly when
    m div 16 = j, and the pattern of 0 otherwise. A finite check over the 4096 positions, on words only. -/
private theorem lit1t_bits : ∀ i, i < 4096 →
    lit1t i = if (i / 16) / 16 = i % 16 then 0x3F800000#32 else 0x00000000#32 := by
  set_option maxRecDepth 100000 in decide +kernel

/-- Entry (k, m) of the first table, as a word. -/
private theorem lit0_word (k : Fin 16) (mm : Fin 256) :
    lit0 (S16x256.rowMajor (ix2 k mm))
      = if mm.val % 16 = k.val then 0x3F800000#32 else 0x00000000#32 := by
  have hk := k.isLt
  have hm := mm.isLt
  -- the row-major position of (k, m) in a 16 × 256 array is 256 k + m
  have hv : (S16x256.rowMajor (ix2 k mm)).val = k.val * 256 + mm.val :=
    Shape.rowMajor_val_two (d := ![16, 256]) (ix2 k mm)
  show lit0t (S16x256.rowMajor (ix2 k mm)).val = _
  rw [hv, lit0t_bits _ (by omega)]
  have h1 : (k.val * 256 + mm.val) % 256 = mm.val := by omega
  have h2 : (k.val * 256 + mm.val) / 256 = k.val := by omega
  rw [h1, h2]

/-- Entry (m, j) of the second table, as a word. -/
private theorem lit1_word (mm : Fin 256) (j : Fin 16) :
    lit1 (S256x16.rowMajor (ix2 mm j))
      = if mm.val / 16 = j.val then 0x3F800000#32 else 0x00000000#32 := by
  have hj := j.isLt
  have hm := mm.isLt
  -- the row-major position of (m, j) in a 256 × 16 array is 16 m + j
  have hv : (S256x16.rowMajor (ix2 mm j)).val = mm.val * 16 + j.val :=
    Shape.rowMajor_val_two (d := ![256, 16]) (ix2 mm j)
  show lit1t (S256x16.rowMajor (ix2 mm j)).val = _
  rw [hv, lit1t_bits _ (by omega)]
  have h1 : (mm.val * 16 + j.val) / 16 = mm.val := by omega
  have h2 : (mm.val * 16 + j.val) % 16 = j.val := by omega
  rw [h1, h2]

/-- The 16 × 256 constant spreads: entry (k, m) is 1 when m mod 16 = k and 0 otherwise. -/
theorem tile_isTile :
    MaceSpec.IsTile (fun (k : Fin 16) (mm : Fin 256) =>
      (FloatOps.ofBits (F := Ideal) .f32 (lit0 (S16x256.rowMajor (ix2 k mm))) : EReal)) := by
  intro k mm
  show Ideal.ofBits .f32 (lit0 (S16x256.rowMajor (ix2 k mm))) = _
  rw [lit0_word]
  by_cases h : mm.val % 16 = k.val
  · rw [if_pos h, if_pos h]; exact Ideal.ofBits_one_f32
  · rw [if_neg h, if_neg h]; exact Ideal.ofBits_zero_f32

/-- The 256 × 16 constant gathers: entry (m, j) is 1 when m div 16 = j and 0 otherwise. -/
theorem gather_isGather :
    MaceSpec.IsGather (fun (mm : Fin 256) (j : Fin 16) =>
      (FloatOps.ofBits (F := Ideal) .f32 (lit1 (S256x16.rowMajor (ix2 mm j))) : EReal)) := by
  intro mm j
  show Ideal.ofBits .f32 (lit1 (S256x16.rowMajor (ix2 mm j))) = _
  rw [lit1_word]
  by_cases h : mm.val / 16 = j.val
  · rw [if_pos h, if_pos h]; exact Ideal.ofBits_one_f32
  · rw [if_neg h, if_neg h]; exact Ideal.ofBits_zero_f32

end Cert.KernelIdeal.Lits

end
-- ==== Proof.Payload.lean ====
/-
  What the tiled body stores for one block of 2000 nodes, read at one node of the block.
-/
import proofs.«403991_j52510270161489_4_alg».proof.Proof.Gen.KernelIdeal.Skeleton
import proofs.«403991_j52510270161489_4_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.KernelIdeal.Payload

open Idealize.ShloMosaic Idealize.ShloMosaic.ValueIdx Cert.KernelIdeal Cert.KernelIdeal.Gen

/-- The 2000×16 by 16×256 product into a zero accumulator, at an entry: the sum over the 16 contracted coordinates. -/
private theorem mm16_apply (A : FVec Ideal S2000x16 .f32) (B : FVec Ideal S16x256 .f32) (r : Fin 2000) (mm : Fin 256) :
    matmul dot_S2000x16_S16x256_S2000x256_1_0_0_1_n_n none A B (constant S2000x256 .f32 0x00000000#32) (ix2 r mm)
      = ∑ k : Fin 16, A (ix2 r k) * B (ix2 k mm) := by
  show matmul (DotDims.plain 2000 16 256) none A B (constant (⟨2, ![2000, 256]⟩ : Shape) .f32 0x00000000#32) (ix2 r mm) = _
  rw [matmul_zero_eq_dotGeneral]
  exact StackMember.dotGeneral_plain_apply none A B r mm

/-- The 2000×256 by 256×16 product into a zero accumulator, at an entry: the sum over the 256 contracted coordinates. -/
private theorem mm256_apply (A : FVec Ideal S2000x256 .f32) (B : FVec Ideal S256x16 .f32) (r : Fin 2000) (j : Fin 16) :
    matmul dot_S2000x256_S256x16_S2000x16_1_0_0_1_n_n none A B (constant S2000x16 .f32 0x00000000#32) (ix2 r j)
      = ∑ mm : Fin 256, A (ix2 r mm) * B (ix2 mm j) := by
  show matmul (DotDims.plain 2000 256 16) none A B (constant (⟨2, ![2000, 16]⟩ : Shape) .f32 0x00000000#32) (ix2 r j) = _
  rw [matmul_zero_eq_dotGeneral]
  exact StackMember.dotGeneral_plain_apply none A B r j

/-- The sum along the 16 channels of a 2000×16 block, at a row. -/
private theorem red_apply (X : FVec Ideal S2000x16 .f32) (h : S2000x16.Reduces [1] S2000) (hφ : FKind.Formats .f32)
    (hacc : (0x00000000#32 : BitVec (FTy.f32).bits) = FKind.add.neutral .f32 hφ) (r : Fin 2000) :
    multiReduction .add [1] S2000 X 0x00000000#32 h hφ hacc (ix1 r) = ∑ j : Fin 16, X (ix2 r j) := by
  refine (Ideal.multiReduction_add_single X _ h hφ hacc (ix1 r)).trans ?_
  refine Finset.sum_congr rfl fun c _ => ?_
  exact congrArg X (by funext a; apply Fin.ext; fin_cases a <;> rfl)

/-- A vector of 2000 entries cast to 1×1×2000 reads, at (a, b, r), entry r. -/
private theorem cast3_apply (x : FVec Ideal S2000 .f32) (h : S2000.ShapeCasts S1x1x2000) (a b : Fin 1) (r : Fin 2000) :
    shapeCast S1x1x2000 x h (ix3 a b r) = x (ix1 r) :=
  shapeCast_apply x h _ _ (by
    have ha : a.val = 0 := by omega
    have hb : b.val = 0 := by omega
    rw [Shape.rowMajor_val_three, Shape.rowMajor_val_one]
    show r.val = (a.val * 1 + b.val) * 2000 + r.val
    omega)

/-- One flat layer of the tiled body at row r and channel j: the weights' leading unit axis dropped, the state and the
    message spread over the 256 lanes by the first constant matrix, multiplied lane by lane, added, and gathered by the
    second constant matrix. -/
private theorem layer_apply (cw mw : FVec Ideal S1x2000x256 .f32) (h msg : FVec Ideal S2000x16 .f32)
    (v14 : FVec Ideal S16x256 .f32) (v15 : FVec Ideal S256x16 .f32)
    (hc hm : S1x2000x256.ShapeCasts S2000x256) (r : Fin 2000) (j : Fin 16) :
    matmul dot_S2000x256_S256x16_S2000x16_1_0_0_1_n_n none
        (addf (mulf (shapeCast S2000x256 cw hc)
                 (matmul dot_S2000x16_S16x256_S2000x256_1_0_0_1_n_n none h v14 (constant S2000x256 .f32 0x00000000#32)))
              (mulf (shapeCast S2000x256 mw hm)
                 (matmul dot_S2000x16_S16x256_S2000x256_1_0_0_1_n_n none msg v14 (constant S2000x256 .f32 0x00000000#32))))
        v15 (constant S2000x16 .f32 0x00000000#32) (ix2 r j)
      = MaceSpec.flatLayer (fun k mm => v14 (ix2 k mm)) (fun mm j => v15 (ix2 mm j))
          (fun mm => cw (ix3 (0 : Fin 1) r mm)) (fun mm => mw (ix3 (0 : Fin 1) r mm))
          (fun k => h (ix2 r k)) (fun k => msg (ix2 r k)) j := by
  refine (mm256_apply _ v15 r j).trans ?_
  unfold MaceSpec.flatLayer
  refine Finset.sum_congr rfl fun mm _ => ?_
  rw [addf_apply, mulf_apply, mulf_apply, mm16_apply, mm16_apply, shapeCast_1ab_ab_apply, shapeCast_1ab_ab_apply]

/-- Row r of the block's result is the flat two-layer value of row r of the seven data blocks, through the two
    constant matrices as loaded. -/
theorem pay_apply (v0 v2 v4 : FVec Ideal S2000x16 .f32) (v6 v8 v10 v12 : FVec Ideal S1x2000x256 .f32)
    (v14 : FVec Ideal S16x256 .f32) (v15 : FVec Ideal S256x16 .f32) (a b : Fin 1) (r : Fin 2000) :
    k0_pay1 (F := Ideal) v0 v2 v4 v6 v8 v10 v12 v14 v15 (ix3 a b r)
      = MaceSpec.flatTwoLayers (fun k mm => v14 (ix2 k mm)) (fun mm j => v15 (ix2 mm j))
          (fun mm => v6 (ix3 (0 : Fin 1) r mm)) (fun mm => v8 (ix3 (0 : Fin 1) r mm))
          (fun mm => v10 (ix3 (0 : Fin 1) r mm)) (fun mm => v12 (ix3 (0 : Fin 1) r mm))
          (fun k => v0 (ix2 r k)) (fun k => v2 (ix2 r k)) (fun k => v4 (ix2 r k)) := by
  unfold k0_pay1
  refine (cast3_apply _ _ a b r).trans ?_
  refine (red_apply _ _ _ _ r).trans ?_
  unfold MaceSpec.flatTwoLayers
  refine Finset.sum_congr rfl fun j _ => ?_
  refine (layer_apply _ _ _ _ v14 v15 _ _ r j).trans ?_
  refine congrArg₂ (fun hh ms => MaceSpec.flatLayer _ _ _ _ hh ms j) (funext fun k => ?_) (funext fun k => ?_)
  · refine (layer_apply _ _ _ _ v14 v15 _ _ r k).trans ?_
    rw [shapeCast_self, shapeCast_self]
  · rw [shapeCast_self]

end Cert.KernelIdeal.Payload

end
-- ==== Proof.KValue.lean ====
/-
  The tiled program's output array, as one function of the argument arrays.

  Grid point t works on nodes 2000 t … 2000 t + 1999. Its blocks are rows of the argument arrays: a state or message block
  is rows 2000 t + r of the array with its trailing unit axis dropped, a weight block is the same rows of rank 0 of the
  weight array with its two channel axes merged (entry 16 a + b of the merged axis is entry (a, b)), and the two constant
  matrices are whole. So row r of what point t writes back is the value of node 2000 t + r, the 25 blocks cover the
  array, and the array ends holding every node's value.
-/
import proofs.«403991_j52510270161489_4_alg».proof.Proof.Gen.KernelIdeal.Frame
import proofs.«403991_j52510270161489_4_alg».proof.Proof.Spec
import proofs.«403991_j52510270161489_4_alg».proof.Proof.Lits
import proofs.«403991_j52510270161489_4_alg».proof.Proof.Payload
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The argument arrays, and the blocks of a grid point, at their literal types -/

abbrev aH0 (c : Dev nD) : S50000x16x1.Idx → EReal := m ((c : Thread nD τ).loc main_arg0)
abbrev aMsg0 (c : Dev nD) : S50000x16x1.Idx → EReal := m ((c : Thread nD τ).loc main_arg5)
abbrev aMsg1 (c : Dev nD) : S50000x16x1.Idx → EReal := m ((c : Thread nD τ).loc main_arg8)
abbrev aCw0 (c : Dev nD) : S3x50000x16x16.Idx → EReal := m ((c : Thread nD τ).loc main_arg1)
abbrev aMw0 (c : Dev nD) : S3x50000x16x16.Idx → EReal := m ((c : Thread nD τ).loc main_arg2)
abbrev aCw1 (c : Dev nD) : S3x50000x16x16.Idx → EReal := m ((c : Thread nD τ).loc main_arg3)
abbrev aMw1 (c : Dev nD) : S3x50000x16x16.Idx → EReal := m ((c : Thread nD τ).loc main_arg4)

abbrev b0 (c : Dev nD) (t : Fin cfg0.N) : FVec Ideal S2000x16 .f32 := iblk m c 0 t
abbrev b1 (c : Dev nD) (t : Fin cfg0.N) : FVec Ideal S1x2000x256 .f32 := iblk m c 1 t
abbrev b2 (c : Dev nD) (t : Fin cfg0.N) : FVec Ideal S1x2000x256 .f32 := iblk m c 2 t
abbrev b3 (c : Dev nD) (t : Fin cfg0.N) : FVec Ideal S1x2000x256 .f32 := iblk m c 3 t
abbrev b4 (c : Dev nD) (t : Fin cfg0.N) : FVec Ideal S1x2000x256 .f32 := iblk m c 4 t
abbrev b5 (c : Dev nD) (t : Fin cfg0.N) : FVec Ideal S2000x16 .f32 := iblk m c 5 t
abbrev b6 (c : Dev nD) (t : Fin cfg0.N) : FVec Ideal S2000x16 .f32 := iblk m c 6 t
abbrev b7 (c : Dev nD) (t : Fin cfg0.N) : FVec Ideal S16x256 .f32 := iblk m c 7 t
abbrev b8 (c : Dev nD) (t : Fin cfg0.N) : FVec Ideal S256x16 .f32 := iblk m c 8 t

/-! ## The arrays the region finds: the host's reshapes and constants before it -/

theorem V_v0 (c : Dev nD) : (V m c main_v0 : S50000x16.Idx → EReal)
    = shapeCast S50000x16 (aH0 m c) shapeCasts_S50000x16x1_S50000x16 := by
  show StableHlo.after hostOps0 (fun b => m (c, b)) (Proc.devRef .tc main_v0) = _
  after_results
  rfl

theorem V_v1 (c : Dev nD) : (V m c main_v1 : S50000x16.Idx → EReal)
    = shapeCast S50000x16 (aMsg0 m c) shapeCasts_S50000x16x1_S50000x16 := by
  show StableHlo.after hostOps0 (fun b => m (c, b)) (Proc.devRef .tc main_v1) = _
  after_results
  rfl

theorem V_v2 (c : Dev nD) : (V m c main_v2 : S50000x16.Idx → EReal)
    = shapeCast S50000x16 (aMsg1 m c) shapeCasts_S50000x16x1_S50000x16 := by
  show StableHlo.after hostOps0 (fun b => m (c, b)) (Proc.devRef .tc main_v2) = _
  after_results
  rfl

theorem V_v3 (c : Dev nD) : (V m c main_v3 : S3x50000x256.Idx → EReal)
    = shapeCast S3x50000x256 (aCw0 m c) shapeCasts_S3x50000x16x16_S3x50000x256 := by
  show StableHlo.after hostOps0 (fun b => m (c, b)) (Proc.devRef .tc main_v3) = _
  after_results
  rfl

theorem V_v4 (c : Dev nD) : (V m c main_v4 : S3x50000x256.Idx → EReal)
    = shapeCast S3x50000x256 (aMw0 m c) shapeCasts_S3x50000x16x16_S3x50000x256 := by
  show StableHlo.after hostOps0 (fun b => m (c, b)) (Proc.devRef .tc main_v4) = _
  after_results
  rfl

theorem V_v5 (c : Dev nD) : (V m c main_v5 : S3x50000x256.Idx → EReal)
    = shapeCast S3x50000x256 (aCw1 m c) shapeCasts_S3x50000x16x16_S3x50000x256 := by
  show StableHlo.after hostOps0 (fun b => m (c, b)) (Proc.devRef .tc main_v5) = _
  after_results
  rfl

theorem V_v6 (c : Dev nD) : (V m c main_v6 : S3x50000x256.Idx → EReal)
    = shapeCast S3x50000x256 (aMw1 m c) shapeCasts_S3x50000x16x16_S3x50000x256 := by
  show StableHlo.after hostOps0 (fun b => m (c, b)) (Proc.devRef .tc main_v6) = _
  after_results
  rfl

theorem V_cst (c : Dev nD) : (V m c main_cst : S16x256.Idx → EReal)
    = fun i => FloatOps.ofBits (F := Ideal) .f32 (lit0 (S16x256.rowMajor i)) := by
  show StableHlo.after hostOps0 (fun b => m (c, b)) (Proc.devRef .tc main_cst) = _
  after_results
  rfl

theorem V_cst_0 (c : Dev nD) : (V m c main_cst_0 : S256x16.Idx → EReal)
    = fun i => FloatOps.ofBits (F := Ideal) .f32 (lit1 (S256x16.rowMajor i)) := by
  show StableHlo.after hostOps0 (fun b => m (c, b)) (Proc.devRef .tc main_cst_0) = _
  after_results
  rfl

/-- A state or message array with its unit axis dropped, at (n, k). -/
theorem vec_at (x : S50000x16x1.Idx → EReal) (n : Fin 50000) (k : Fin 16) :
    shapeCast S50000x16 x shapeCasts_S50000x16x1_S50000x16 (ix2 n k) = x (ix3 n k (0 : Fin 1)) := by
  refine shapeCast_apply x _ _ _ ?_
  rw [Shape.rowMajor_val_three, Shape.rowMajor_val_two]
  show (n.val * 16 + k.val) * 1 + 0 = n.val * 16 + k.val
  omega

/-- A weight array with its channel axes merged, at (rank 0, n, 16 a + b). -/
theorem wt_at (x : S3x50000x16x16.Idx → EReal) (n : Fin 50000) (a b : Fin 16) (mm : Fin 256) (hmm : mm.val = 16 * a.val + b.val) :
    shapeCast S3x50000x256 x shapeCasts_S3x50000x16x16_S3x50000x256 (ix3 (0 : Fin 3) n mm) = x (ix4 (0 : Fin 3) n a b) := by
  refine shapeCast_apply x _ _ _ ?_
  rw [Shape.rowMajor_val_four, Shape.rowMajor_val_three]
  show ((0 * 50000 + n.val) * 16 + a.val) * 16 + b.val = (0 * 50000 + n.val) * 256 + mm.val
  omega

/-! ## Where each window's block sits -/

/-- The printed index maps over the 25 grid points: the node axis moves with the point, every other axis stays. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

/-- Row r of point t's state block is row 2000 t + r of the initial states. -/
theorem b0_at (c : Dev nD) (t : Fin cfg0.N) (r : Fin 2000) (k : Fin 16) (n : Fin 50000) (hn : n.val = 2000 * t.val + r.val) :
    b0 m c t (ix2 r k) = aH0 m c (ix3 n k (0 : Fin 1)) := by
  obtain ⟨⟨e0, e1⟩, -⟩ := idx_facts t
  have he : ((cfg0.win 0).blk t).view.emb (ix2 r k : S2000x16.Idx) = (ix2 n k : S50000x16.Idx) := by
    funext a; apply Fin.ext
    match a with
    | ⟨0, _⟩ => show win0_0.index t (0 : Fin 2) * 2000 + 1 * r.val = n.val; omega
    | ⟨1, _⟩ => show win0_0.index t (1 : Fin 2) * 16 + 1 * k.val = k.val; omega
  show iblk m c 0 t (ix2 r k) = _
  unfold iblk
  rw [View.read_apply]
  show V m c main_v0 (((cfg0.win 0).blk t).view.emb (ix2 r k : S2000x16.Idx)) = _
  rw [he, V_v0, vec_at]

/-- Row r of point t's first-message block is row 2000 t + r of the array. -/
theorem b5_at (c : Dev nD) (t : Fin cfg0.N) (r : Fin 2000) (k : Fin 16) (n : Fin 50000) (hn : n.val = 2000 * t.val + r.val) :
    b5 m c t (ix2 r k) = aMsg0 m c (ix3 n k (0 : Fin 1)) := by
  obtain ⟨-, -, -, -, -, ⟨e5a, e5b⟩, ⟨e6a, e6b⟩, -⟩ := idx_facts t
  have he : ((cfg0.win 5).blk t).view.emb (ix2 r k : S2000x16.Idx) = (ix2 n k : S50000x16.Idx) := by
    funext a; apply Fin.ext
    match a with
    | ⟨0, _⟩ => show win0_5.index t (0 : Fin 2) * 2000 + 1 * r.val = n.val; omega
    | ⟨1, _⟩ => show win0_5.index t (1 : Fin 2) * 16 + 1 * k.val = k.val; omega
  show iblk m c 5 t (ix2 r k) = _
  unfold iblk
  rw [View.read_apply]
  show V m c main_v1 (((cfg0.win 5).blk t).view.emb (ix2 r k : S2000x16.Idx)) = _
  rw [he, V_v1, vec_at]

/-- Row r of point t's second-message block is row 2000 t + r of the array. -/
theorem b6_at (c : Dev nD) (t : Fin cfg0.N) (r : Fin 2000) (k : Fin 16) (n : Fin 50000) (hn : n.val = 2000 * t.val + r.val) :
    b6 m c t (ix2 r k) = aMsg1 m c (ix3 n k (0 : Fin 1)) := by
  obtain ⟨-, -, -, -, -, ⟨e5a, e5b⟩, ⟨e6a, e6b⟩, -⟩ := idx_facts t
  have he : ((cfg0.win 6).blk t).view.emb (ix2 r k : S2000x16.Idx) = (ix2 n k : S50000x16.Idx) := by
    funext a; apply Fin.ext
    match a with
    | ⟨0, _⟩ => show win0_6.index t (0 : Fin 2) * 2000 + 1 * r.val = n.val; omega
    | ⟨1, _⟩ => show win0_6.index t (1 : Fin 2) * 16 + 1 * k.val = k.val; omega
  show iblk m c 6 t (ix2 r k) = _
  unfold iblk
  rw [View.read_apply]
  show V m c main_v2 (((cfg0.win 6).blk t).view.emb (ix2 r k : S2000x16.Idx)) = _
  rw [he, V_v2, vec_at]

/-- Row r of point t's first state-weight block, at lane 16 a + b, is entry (a, b) of rank 0 of node 2000 t + r's weights. -/
theorem b1_at (c : Dev nD) (t : Fin cfg0.N) (r : Fin 2000) (a b : Fin 16) (mm : Fin 256) (hmm : mm.val = 16 * a.val + b.val)
    (n : Fin 50000) (hn : n.val = 2000 * t.val + r.val) :
    b1 m c t (ix3 (0 : Fin 1) r mm) = aCw0 m c (ix4 (0 : Fin 3) n a b) := by
  obtain ⟨-, ⟨e1a, e1b, e1c⟩, ⟨e2a, e2b, e2c⟩, ⟨e3a, e3b, e3c⟩, ⟨e4a, e4b, e4c⟩, -⟩ := idx_facts t
  have he : ((cfg0.win 1).blk t).view.emb (ix3 (0 : Fin 1) r mm : S1x2000x256.Idx) = (ix3 (0 : Fin 3) n mm : S3x50000x256.Idx) := by
    funext x; apply Fin.ext
    match x with
    | ⟨0, _⟩ => show win0_1.index t (0 : Fin 3) * 1 + 1 * 0 = 0; omega
    | ⟨1, _⟩ => show win0_1.index t (1 : Fin 3) * 2000 + 1 * r.val = n.val; omega
    | ⟨2, _⟩ => show win0_1.index t (2 : Fin 3) * 256 + 1 * mm.val = mm.val; omega
  show iblk m c 1 t (ix3 (0 : Fin 1) r mm) = _
  unfold iblk
  rw [View.read_apply]
  show V m c main_v3 (((cfg0.win 1).blk t).view.emb (ix3 (0 : Fin 1) r mm : S1x2000x256.Idx)) = _
  rw [he, V_v3, wt_at _ n a b mm hmm]

/-- Row r of point t's first message-weight block, at lane 16 a + b, is entry (a, b) of rank 0 of node 2000 t + r's weights. -/
theorem b2_at (c : Dev nD) (t : Fin cfg0.N) (r : Fin 2000) (a b : Fin 16) (mm : Fin 256) (hmm : mm.val = 16 * a.val + b.val)
    (n : Fin 50000) (hn : n.val = 2000 * t.val + r.val) :
    b2 m c t (ix3 (0 : Fin 1) r mm) = aMw0 m c (ix4 (0 : Fin 3) n a b) := by
  obtain ⟨-, ⟨e1a, e1b, e1c⟩, ⟨e2a, e2b, e2c⟩, ⟨e3a, e3b, e3c⟩, ⟨e4a, e4b, e4c⟩, -⟩ := idx_facts t
  have he : ((cfg0.win 2).blk t).view.emb (ix3 (0 : Fin 1) r mm : S1x2000x256.Idx) = (ix3 (0 : Fin 3) n mm : S3x50000x256.Idx) := by
    funext x; apply Fin.ext
    match x with
    | ⟨0, _⟩ => show win0_2.index t (0 : Fin 3) * 1 + 1 * 0 = 0; omega
    | ⟨1, _⟩ => show win0_2.index t (1 : Fin 3) * 2000 + 1 * r.val = n.val; omega
    | ⟨2, _⟩ => show win0_2.index t (2 : Fin 3) * 256 + 1 * mm.val = mm.val; omega
  show iblk m c 2 t (ix3 (0 : Fin 1) r mm) = _
  unfold iblk
  rw [View.read_apply]
  show V m c main_v4 (((cfg0.win 2).blk t).view.emb (ix3 (0 : Fin 1) r mm : S1x2000x256.Idx)) = _
  rw [he, V_v4, wt_at _ n a b mm hmm]

/-- Row r of point t's second state-weight block, at lane 16 a + b, is entry (a, b) of rank 0 of node 2000 t + r's weights. -/
theorem b3_at (c : Dev nD) (t : Fin cfg0.N) (r : Fin 2000) (a b : Fin 16) (mm : Fin 256) (hmm : mm.val = 16 * a.val + b.val)
    (n : Fin 50000) (hn : n.val = 2000 * t.val + r.val) :
    b3 m c t (ix3 (0 : Fin 1) r mm) = aCw1 m c (ix4 (0 : Fin 3) n a b) := by
  obtain ⟨-, ⟨e1a, e1b, e1c⟩, ⟨e2a, e2b, e2c⟩, ⟨e3a, e3b, e3c⟩, ⟨e4a, e4b, e4c⟩, -⟩ := idx_facts t
  have he : ((cfg0.win 3).blk t).view.emb (ix3 (0 : Fin 1) r mm : S1x2000x256.Idx) = (ix3 (0 : Fin 3) n mm : S3x50000x256.Idx) := by
    funext x; apply Fin.ext
    match x with
    | ⟨0, _⟩ => show win0_3.index t (0 : Fin 3) * 1 + 1 * 0 = 0; omega
    | ⟨1, _⟩ => show win0_3.index t (1 : Fin 3) * 2000 + 1 * r.val = n.val; omega
    | ⟨2, _⟩ => show win0_3.index t (2 : Fin 3) * 256 + 1 * mm.val = mm.val; omega
  show iblk m c 3 t (ix3 (0 : Fin 1) r mm) = _
  unfold iblk
  rw [View.read_apply]
  show V m c main_v5 (((cfg0.win 3).blk t).view.emb (ix3 (0 : Fin 1) r mm : S1x2000x256.Idx)) = _
  rw [he, V_v5, wt_at _ n a b mm hmm]

/-- Row r of point t's second message-weight block, at lane 16 a + b, is entry (a, b) of rank 0 of node 2000 t + r's weights. -/
theorem b4_at (c : Dev nD) (t : Fin cfg0.N) (r : Fin 2000) (a b : Fin 16) (mm : Fin 256) (hmm : mm.val = 16 * a.val + b.val)
    (n : Fin 50000) (hn : n.val = 2000 * t.val + r.val) :
    b4 m c t (ix3 (0 : Fin 1) r mm) = aMw1 m c (ix4 (0 : Fin 3) n a b) := by
  obtain ⟨-, ⟨e1a, e1b, e1c⟩, ⟨e2a, e2b, e2c⟩, ⟨e3a, e3b, e3c⟩, ⟨e4a, e4b, e4c⟩, -⟩ := idx_facts t
  have he : ((cfg0.win 4).blk t).view.emb (ix3 (0 : Fin 1) r mm : S1x2000x256.Idx) = (ix3 (0 : Fin 3) n mm : S3x50000x256.Idx) := by
    funext x; apply Fin.ext
    match x with
    | ⟨0, _⟩ => show win0_4.index t (0 : Fin 3) * 1 + 1 * 0 = 0; omega
    | ⟨1, _⟩ => show win0_4.index t (1 : Fin 3) * 2000 + 1 * r.val = n.val; omega
    | ⟨2, _⟩ => show win0_4.index t (2 : Fin 3) * 256 + 1 * mm.val = mm.val; omega
  show iblk m c 4 t (ix3 (0 : Fin 1) r mm) = _
  unfold iblk
  rw [View.read_apply]
  show V m c main_v6 (((cfg0.win 4).blk t).view.emb (ix3 (0 : Fin 1) r mm : S1x2000x256.Idx)) = _
  rw [he, V_v6, wt_at _ n a b mm hmm]

/-- Every point's spreading block is the whole 16 × 256 constant. -/
theorem b7_at (c : Dev nD) (t : Fin cfg0.N) (k : Fin 16) (mm : Fin 256) :
    b7 m c t (ix2 k mm) = FloatOps.ofBits (F := Ideal) .f32 (lit0 (S16x256.rowMajor (ix2 k mm))) := by
  obtain ⟨-, -, -, -, -, -, -, ⟨e7a, e7b⟩, -⟩ := idx_facts t
  have he : ((cfg0.win 7).blk t).view.emb (ix2 k mm : S16x256.Idx) = (ix2 k mm : S16x256.Idx) := by
    funext a; apply Fin.ext
    match a with
    | ⟨0, _⟩ => show win0_7.index t (0 : Fin 2) * 16 + 1 * k.val = k.val; omega
    | ⟨1, _⟩ => show win0_7.index t (1 : Fin 2) * 256 + 1 * mm.val = mm.val; omega
  show iblk m c 7 t (ix2 k mm) = _
  unfold iblk
  rw [View.read_apply]
  show V m c main_cst (((cfg0.win 7).blk t).view.emb (ix2 k mm : S16x256.Idx)) = _
  rw [he, V_cst]

/-- Every point's gathering block is the whole 256 × 16 constant. -/
theorem b8_at (c : Dev nD) (t : Fin cfg0.N) (mm : Fin 256) (j : Fin 16) :
    b8 m c t (ix2 mm j) = FloatOps.ofBits (F := Ideal) .f32 (lit1 (S256x16.rowMajor (ix2 mm j))) := by
  obtain ⟨-, -, -, -, -, -, -, -, ⟨e8a, e8b⟩, -⟩ := idx_facts t
  have he : ((cfg0.win 8).blk t).view.emb (ix2 mm j : S256x16.Idx) = (ix2 mm j : S256x16.Idx) := by
    funext a; apply Fin.ext
    match a with
    | ⟨0, _⟩ => show win0_8.index t (0 : Fin 2) * 256 + 1 * mm.val = mm.val; omega
    | ⟨1, _⟩ => show win0_8.index t (1 : Fin 2) * 16 + 1 * j.val = j.val; omega
  show iblk m c 8 t (ix2 mm j) = _
  unfold iblk
  rw [View.read_apply]
  show V m c main_cst_0 (((cfg0.win 8).blk t).view.emb (ix2 mm j : S256x16.Idx)) = _
  rw [he, V_cst_0]

theorem tile_blk (c : Dev nD) (t : Fin cfg0.N) : MaceSpec.IsTile (fun k mm => b7 m c t (ix2 k mm)) := fun k mm => by
  show b7 m c t (ix2 k mm) = _
  rw [b7_at]
  exact Lits.tile_isTile k mm

theorem gather_blk (c : Dev nD) (t : Fin cfg0.N) : MaceSpec.IsGather (fun mm j => b8 m c t (ix2 mm j)) := fun mm j => by
  show b8 m c t (ix2 mm j) = _
  rw [b8_at]
  exact Lits.gather_isGather mm j

/-! ## One row of what a point writes back -/

theorem twoLayers_congr {cw0 mw0 cw1 mw1 cw0' mw0' cw1' mw1' : Fin 16 → Fin 16 → EReal} {h0 msg0 msg1 h0' msg0' msg1' : Fin 16 → EReal}
    (e1 : cw0 = cw0') (e2 : mw0 = mw0') (e3 : cw1 = cw1') (e4 : mw1 = mw1') (e5 : h0 = h0') (e6 : msg0 = msg0') (e7 : msg1 = msg1') :
    MaceSpec.twoLayers cw0 mw0 cw1 mw1 h0 msg0 msg1 = MaceSpec.twoLayers cw0' mw0' cw1' mw1' h0' msg0' msg1' := by
  subst e1 e2 e3 e4 e5 e6 e7; rfl

/-- Row r of point t's result is the value of node 2000 t + r. -/
theorem row_eq (c : Dev nD) (t : Fin cfg0.N) (a b : Fin 1) (r : Fin 2000) (n : Fin 50000) (hn : n.val = 2000 * t.val + r.val) :
    k0_pay1 (F := Ideal) (b0 m c t) (b5 m c t) (b6 m c t) (b1 m c t) (b2 m c t) (b3 m c t) (b4 m c t) (b7 m c t) (b8 m c t) (ix3 a b r)
      = MaceSpec.nodeVal (aH0 m c) (aMsg0 m c) (aMsg1 m c) (aCw0 m c) (aMw0 m c) (aCw1 m c) (aMw1 m c) n := by
  refine (Payload.pay_apply (b0 m c t) (b5 m c t) (b6 m c t) (b1 m c t) (b2 m c t) (b3 m c t) (b4 m c t) (b7 m c t) (b8 m c t) a b r).trans ?_
  refine (MaceSpec.flatTwoLayers_eq (tile_blk m c t) (gather_blk m c t) _ _ _ _ _ _ _).trans ?_
  unfold MaceSpec.nodeVal
  refine twoLayers_congr ?_ ?_ ?_ ?_ ?_ ?_ ?_
  · funext x y; exact b1_at m c t r x y _ rfl n hn
  · funext x y; exact b2_at m c t r x y _ rfl n hn
  · funext x y; exact b3_at m c t r x y _ rfl n hn
  · funext x y; exact b4_at m c t r x y _ rfl n hn
  · funext k; exact b0_at m c t r k n hn
  · funext k; exact b5_at m c t r k n hn
  · funext k; exact b6_at m c t r k n hn

/-! ## The output array -/

/-- Entry (t, 0, r) of the output array is the value of node 2000 t + r. -/
def Gk (c : Dev nD) : S25x1x2000.Idx → EReal := fun j =>
  MaceSpec.nodeVal (aH0 m c) (aMsg0 m c) (aMsg1 m c) (aCw0 m c) (aMw0 m c) (aCw1 m c) (aMw1 m c)
    ⟨2000 * (j 0).val + (j 2).val, by
      have h0 : (j 0).val < 25 := (j 0).isLt
      have h2 : (j 2).val < 2000 := (j 2).isLt
      omega⟩

/-- What point t writes back is block t of that array. -/
theorem flushed_eq (c : Dev nD) (t : Fin cfg0.N) :
    (dats m 0 c).flushed 9 t = ((cfg0.win 9).blk t).view.read (Elt Ideal) (Gk m c) := by
  show (cfg0.win 9).cut (grid0.coords t) ((dats m 0 c).after 9 t) = _
  rw [after0_9]
  unfold out0_9
  rw [View.canon_unit_zero hz3]
  simp only [View.ld_unit_zero (S := S2000x16) hz2, View.ld_unit_zero (S := S1x2000x256) hz3,
    View.ld_unit_zero (S := S16x256) hz2, View.ld_unit_zero (S := S256x16) hz2]
  funext y
  obtain ⟨a, b, r, rfl⟩ : ∃ (a : Fin 1) (b : Fin 1) (r : Fin 2000), y = (ix3 a b r : S1x1x2000.Idx) :=
    ⟨y 0, y 1, y 2, eq_ix3 (y : S1x1x2000.Idx)⟩
  have ht : t.val < 25 := by have h := t.isLt; have hN : cfg0.N = 25 := N_0; omega
  obtain ⟨-, -, -, -, -, -, -, -, -, ⟨e9a, e9b, e9c⟩⟩ := idx_facts t
  have he : ((cfg0.win 9).blk t).view.emb (ix3 a b r : S1x1x2000.Idx) = (ix3 (⟨t.val, ht⟩ : Fin 25) (0 : Fin 1) r : S25x1x2000.Idx) := by
    funext x; apply Fin.ext
    match x with
    | ⟨0, _⟩ => show win0_9.index t (0 : Fin 3) * 1 + 1 * a.val = t.val; have := a.isLt; omega
    | ⟨1, _⟩ => show win0_9.index t (1 : Fin 3) * 1 + 1 * b.val = 0; have := b.isLt; omega
    | ⟨2, _⟩ => show win0_9.index t (2 : Fin 3) * 2000 + 1 * r.val = r.val; omega
  show k0_pay1 (F := Ideal) (b0 m c t) (b5 m c t) (b6 m c t) (b1 m c t) (b2 m c t) (b3 m c t) (b4 m c t) (b7 m c t) (b8 m c t) (ix3 a b r)
    = Gk m c (((cfg0.win 9).blk t).view.emb (ix3 a b r : S1x1x2000.Idx))
  rw [he]
  exact row_eq m c t a b r ⟨2000 * t.val + r.val, by have := r.isLt; omega⟩ rfl

/-- The 25 blocks cover the output array. -/
theorem cover (i : S25x1x2000.Idx) : ∃ t : Fin cfg0.N, (cfg0.win 9).flush t = true ∧ i ∈ ((cfg0.win 9).blk t).view.set := by
  have h0 : (i 0).val < 25 := (i 0).isLt
  have h1 : (i 1).val < 1 := (i 1).isLt
  have h2 : (i 2).val < 2000 := (i 2).isLt
  have hN : cfg0.N = 25 := N_0
  have hT : (i 0).val < cfg0.N := by omega
  refine ⟨⟨(i 0).val, hT⟩, flush0_9 _, ?_⟩
  obtain ⟨-, -, -, -, -, -, -, -, -, ⟨e9a, e9b, e9c⟩⟩ := idx_facts ⟨(i 0).val, hT⟩
  show i ∈ ((View.whole main_v7).slice (win0_9.rect ⟨(i 0).val, hT⟩)).set
  rw [View.set_slice_whole, Rect.mem_set_unit]
  intro x
  match x with
  | ⟨0, _⟩ =>
    show win0_9.index ⟨(i 0).val, hT⟩ (0 : Fin 3) * 1 ≤ (i 0).val ∧ (i 0).val < win0_9.index ⟨(i 0).val, hT⟩ (0 : Fin 3) * 1 + 1
    rw [e9a]; show (i 0).val * 1 ≤ (i 0).val ∧ (i 0).val < (i 0).val * 1 + 1; omega
  | ⟨1, _⟩ =>
    show win0_9.index ⟨(i 0).val, hT⟩ (1 : Fin 3) * 1 ≤ (i 1).val ∧ (i 1).val < win0_9.index ⟨(i 0).val, hT⟩ (1 : Fin 3) * 1 + 1
    rw [e9b]; omega
  | ⟨2, _⟩ =>
    show win0_9.index ⟨(i 0).val, hT⟩ (2 : Fin 3) * 2000 ≤ (i 2).val ∧ (i 2).val < win0_9.index ⟨(i 0).val, hT⟩ (2 : Fin 3) * 2000 + 2000
    rw [e9c]; omega

/-- So the output array ends holding every node's value. -/
theorem final9 (c : Dev nD) : (dats m 0 c).arrAt 9 cfg0.N = Gk m c :=
  (dats m 0 c).arrAt_eq_of_cover 9 (Gk m c) (fun t _ => flushed_eq m c t) cover

/-! ## The host operations after the region -/

/-- The last product and the bias: what both programs do with the row of node values. -/
def tail (X : FVec Ideal S1x50000 .f32) (w : FVec Ideal S2x50000 .f32) (b : FVec Ideal S2 .f32) : FVec Ideal S1x2 .f32 :=
  addf (Host.dotGeneral (F := Ideal) dot_S1x50000_S50000x2_S1x2_1_0_0_1_n_n none X (transpose S50000x2 [1, 0] w transposes_S2x50000_S50000x2_1_0))
    (broadcastInDim S1x2 ![1] bcast_S2_S1x2_1 b)

/-- The output array flattened to a row is the row of node values: entry 2000 t + r of the row is entry (t, 0, r). -/
theorem row_of_blocks (c : Dev nD) :
    shapeCast S1x50000 (shapeCast S50000 (Gk m c) shapeCasts_S25x1x2000_S50000) shapeCasts_S50000_S1x50000
      = MaceSpec.G (aH0 m c) (aMsg0 m c) (aMsg1 m c) (aCw0 m c) (aMw0 m c) (aCw1 m c) (aMw1 m c) := by
  funext i
  obtain ⟨a, n, rfl⟩ : ∃ (a : Fin 1) (n : Fin 50000), i = (ix2 a n : S1x50000.Idx) := ⟨i 0, i 1, eq_ix2 (i : S1x50000.Idx)⟩
  have hn : n.val < 50000 := n.isLt
  have ha : a.val = 0 := by have := a.isLt; omega
  rw [MaceSpec.G_ix2]
  refine (shapeCast_apply _ shapeCasts_S50000_S1x50000 _ (ix1 n : S50000.Idx) ?_).trans ?_
  · rw [Shape.rowMajor_val_one, Shape.rowMajor_val_two]
    show n.val = a.val * 50000 + n.val
    omega
  refine (shapeCast_apply _ shapeCasts_S25x1x2000_S50000 _
    (ix3 (⟨n.val / 2000, by omega⟩ : Fin 25) (0 : Fin 1) (⟨n.val % 2000, Nat.mod_lt _ (by norm_num)⟩ : Fin 2000) : S25x1x2000.Idx) ?_).trans ?_
  · rw [Shape.rowMajor_val_three, Shape.rowMajor_val_one]
    show (n.val / 2000 * 1 + 0) * 2000 + n.val % 2000 = n.val
    omega
  unfold Gk
  exact congrArg _ (Fin.ext (by show 2000 * (n.val / 2000) + n.val % 2000 = n.val; omega))

/-- The program's result: the shared last product and bias applied to the row of node values. -/
theorem result_eq (c : Dev nD) :
    Pipeline.afterTail₀ cfgs (dats m) 0 (V0 m) [hostOps1] c main_v13
      = tail (MaceSpec.G (aH0 m c) (aMsg0 m c) (aMsg1 m c) (aCw0 m c) (aMw0 m c) (aCw1 m c) (aMw1 m c))
          (m ((c : Thread nD τ).loc main_arg11)) (m ((c : Thread nD τ).loc main_arg12)) := by
  have e7 : Pipeline.withArrays (cfgs 0).spec c (V0 m c) (fun w => (dats m 0 c).arrAt w (cfgs 0).N) (Proc.devRef .tc main_v7) = Gk m c :=
    (Pipeline.withArrays_arr spec0 launch0.win.arr_inj c _ _ 9).trans (final9 m c)
  have e11 : Pipeline.withArrays (cfgs 0).spec c (V0 m c) (fun w => (dats m 0 c).arrAt w (cfgs 0).N) (Proc.devRef .tc main_arg11)
      = m ((c : Thread nD τ).loc main_arg11) :=
    (Pipeline.withArrays_of_ne _ c (V0 m c) _ main_arg11 (by exact (by decide : ∀ w, Pipeline.arrRef spec0 w ≠ main_arg11))).trans (V_main_arg11 m c)
  have e12 : Pipeline.withArrays (cfgs 0).spec c (V0 m c) (fun w => (dats m 0 c).arrAt w (cfgs 0).N) (Proc.devRef .tc main_arg12)
      = m ((c : Thread nD τ).loc main_arg12) :=
    (Pipeline.withArrays_of_ne _ c (V0 m c) _ main_arg12 (by exact (by decide : ∀ w, Pipeline.arrRef spec0 w ≠ main_arg12))).trans (V_main_arg12 m c)
  rw [← row_of_blocks]
  unfold Pipeline.afterTail₀
  show StableHlo.after hostOps1 _ (Proc.devRef .tc main_v13) = _
  after_results
  rw [e7, e11, e12]
  rfl

/-! ## The run, read -/

/-- Every weakly fair execution of the tiled program ends with its result at the shared tail of the row of node values,
    and with its arguments as launched. -/
theorem run : θ_run defs (onTc (τ := τ) (main (F := Ideal))) ⟨m, fun _ => 0, ρ⟩ fun r => ∀ c : Dev nD,
      r.2.mem ((c.tc : Thread nD τ).loc main_v13)
        = tail (MaceSpec.G (aH0 m c) (aMsg0 m c) (aMsg1 m c) (aCw0 m c) (aMw0 m c) (aCw1 m c) (aMw1 m c))
            (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v13 (Pipeline.mem_restRefs_of main_v13 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.KValue

end
-- ==== Proof.RefValue.lean ====
/-
  The reference program's row of node values is the specification's.
-/
import proofs.«403991_j52510270161489_4_alg».proof.Proof.Gen.ReferenceIdeal.Read
import proofs.«403991_j52510270161489_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-- Rank 0 of the weight array, laid out node by node: entry (n, j, k) of the reshaped slice is entry (0, n, j, k). -/
private theorem v3_at (x1 : (⟨S3x50000x16x16, .f32⟩ : BufTy).Contents (Elt Ideal)) (n : Fin 50000) (j k : Fin 16) :
    val_main_v3 (F := Ideal) x1 (ix3 n j k) = x1 (ix4 (0 : Fin 3) n j k) := by
  rw [val_main_v3_apply, val_main_v2_apply]
  refine congrArg x1 (funext fun a => Fin.ext ?_)
  have hj : j.val < 16 := j.isLt
  have hk : k.val < 16 := k.isLt
  have hn : n.val < 50000 := n.isLt
  match a with
  | ⟨0, _⟩ => rfl
  | ⟨1, _⟩ => show ((n.val * 16 + j.val) * 16 + k.val) / 256 % 50000 = n.val; omega
  | ⟨2, _⟩ => show ((n.val * 16 + j.val) * 16 + k.val) / 16 % 16 = j.val; omega
  | ⟨3, _⟩ => show ((n.val * 16 + j.val) * 16 + k.val) % 16 = k.val; omega

/-- Rank 0 of the weight array, laid out node by node: entry (n, j, k) of the reshaped slice is entry (0, n, j, k). -/
private theorem v6_at (x2 : (⟨S3x50000x16x16, .f32⟩ : BufTy).Contents (Elt Ideal)) (n : Fin 50000) (j k : Fin 16) :
    val_main_v6 (F := Ideal) x2 (ix3 n j k) = x2 (ix4 (0 : Fin 3) n j k) := by
  rw [val_main_v6_apply, val_main_v5_apply]
  refine congrArg x2 (funext fun a => Fin.ext ?_)
  have hj : j.val < 16 := j.isLt
  have hk : k.val < 16 := k.isLt
  have hn : n.val < 50000 := n.isLt
  match a with
  | ⟨0, _⟩ => rfl
  | ⟨1, _⟩ => show ((n.val * 16 + j.val) * 16 + k.val) / 256 % 50000 = n.val; omega
  | ⟨2, _⟩ => show ((n.val * 16 + j.val) * 16 + k.val) / 16 % 16 = j.val; omega
  | ⟨3, _⟩ => show ((n.val * 16 + j.val) * 16 + k.val) % 16 = k.val; omega

/-- Rank 0 of the weight array, laid out node by node: entry (n, j, k) of the reshaped slice is entry (0, n, j, k). -/
private theorem v24_at (x3 : (⟨S3x50000x16x16, .f32⟩ : BufTy).Contents (Elt Ideal)) (n : Fin 50000) (j k : Fin 16) :
    val_main_v24 (F := Ideal) x3 (ix3 n j k) = x3 (ix4 (0 : Fin 3) n j k) := by
  rw [val_main_v24_apply, val_main_v23_apply]
  refine congrArg x3 (funext fun a => Fin.ext ?_)
  have hj : j.val < 16 := j.isLt
  have hk : k.val < 16 := k.isLt
  have hn : n.val < 50000 := n.isLt
  match a with
  | ⟨0, _⟩ => rfl
  | ⟨1, _⟩ => show ((n.val * 16 + j.val) * 16 + k.val) / 256 % 50000 = n.val; omega
  | ⟨2, _⟩ => show ((n.val * 16 + j.val) * 16 + k.val) / 16 % 16 = j.val; omega
  | ⟨3, _⟩ => show ((n.val * 16 + j.val) * 16 + k.val) % 16 = k.val; omega

/-- Rank 0 of the weight array, laid out node by node: entry (n, j, k) of the reshaped slice is entry (0, n, j, k). -/
private theorem v27_at (x4 : (⟨S3x50000x16x16, .f32⟩ : BufTy).Contents (Elt Ideal)) (n : Fin 50000) (j k : Fin 16) :
    val_main_v27 (F := Ideal) x4 (ix3 n j k) = x4 (ix4 (0 : Fin 3) n j k) := by
  rw [val_main_v27_apply, val_main_v26_apply]
  refine congrArg x4 (funext fun a => Fin.ext ?_)
  have hj : j.val < 16 := j.isLt
  have hk : k.val < 16 := k.isLt
  have hn : n.val < 50000 := n.isLt
  match a with
  | ⟨0, _⟩ => rfl
  | ⟨1, _⟩ => show ((n.val * 16 + j.val) * 16 + k.val) / 256 % 50000 = n.val; omega
  | ⟨2, _⟩ => show ((n.val * 16 + j.val) * 16 + k.val) / 16 % 16 = j.val; omega
  | ⟨3, _⟩ => show ((n.val * 16 + j.val) * 16 + k.val) % 16 = k.val; omega

/-- The left operand of a per-node product is read at (n, j, k). -/
private theorem lidx_at (n : Fin 50000) (j k : Fin 16) :
    lidx_main_v4 (ix3 n j (0 : Fin 1)) k = ix3 n j k :=
  funext fun a => Fin.ext (by match a with | ⟨0, _⟩ => rfl | ⟨1, _⟩ => rfl | ⟨2, _⟩ => rfl)

/-- The right operand of a per-node product is read at (n, k, 0). -/
private theorem ridx_at (n : Fin 50000) (j k : Fin 16) :
    ridx_main_v4 (ix3 n j (0 : Fin 1)) k = ix3 n k (0 : Fin 1) :=
  funext fun a => Fin.ext (by match a with | ⟨0, _⟩ => rfl | ⟨1, _⟩ => rfl | ⟨2, _⟩ => rfl)

/-- The first product: row j of node n's state weights against node n's initial state. -/
private theorem v4_at (x0 : (⟨S50000x16x1, .f32⟩ : BufTy).Contents (Elt Ideal))
    (x1 : (⟨S3x50000x16x16, .f32⟩ : BufTy).Contents (Elt Ideal)) (n : Fin 50000) (j : Fin 16) :
    val_main_v4 (F := Ideal) x0 x1 (ix3 n j (0 : Fin 1))
      = ∑ k : Fin 16, x1 (ix4 (0 : Fin 3) n j k) * x0 (ix3 n k (0 : Fin 1)) := by
  rw [val_main_v4_apply]
  refine Finset.sum_congr rfl fun k _ => ?_
  rw [lidx_at, ridx_at, v3_at]

/-- The second product: row j of node n's message weights against node n's first message. -/
private theorem v7_at (x2 : (⟨S3x50000x16x16, .f32⟩ : BufTy).Contents (Elt Ideal))
    (x5 : (⟨S50000x16x1, .f32⟩ : BufTy).Contents (Elt Ideal)) (n : Fin 50000) (j : Fin 16) :
    val_main_v7 (F := Ideal) x2 x5 (ix3 n j (0 : Fin 1))
      = ∑ k : Fin 16, x2 (ix4 (0 : Fin 3) n j k) * x5 (ix3 n k (0 : Fin 1)) := by
  rw [val_main_v7_apply]
  refine Finset.sum_congr rfl fun k _ => ?_
  rw [show lidx_main_v7 (ix3 n j (0 : Fin 1)) k = ix3 n j k from lidx_at n j k,
    show ridx_main_v7 (ix3 n j (0 : Fin 1)) k = ix3 n k (0 : Fin 1) from ridx_at n j k, v6_at]

/-- The first layer at channel j of node n. -/
private theorem v8_at (x0 x5 : (⟨S50000x16x1, .f32⟩ : BufTy).Contents (Elt Ideal))
    (x1 x2 : (⟨S3x50000x16x16, .f32⟩ : BufTy).Contents (Elt Ideal)) (n : Fin 50000) (j : Fin 16) :
    val_main_v8 (F := Ideal) x0 x1 x2 x5 (ix3 n j (0 : Fin 1))
      = MaceSpec.layer (fun a b => x1 (ix4 (0 : Fin 3) n a b)) (fun a b => x2 (ix4 (0 : Fin 3) n a b))
          (fun k => x0 (ix3 n k (0 : Fin 1))) (fun k => x5 (ix3 n k (0 : Fin 1))) j := by
  rw [val_main_v8_apply]
  show val_main_v4 (F := Ideal) x0 x1 (ix3 n j (0 : Fin 1)) + val_main_v7 (F := Ideal) x2 x5 (ix3 n j (0 : Fin 1)) = _
  rw [v4_at, v7_at]
  rfl

/-- The second layer's state product: row j of node n's second state weights against the first layer. -/
private theorem v25_at (x0 x5 : (⟨S50000x16x1, .f32⟩ : BufTy).Contents (Elt Ideal))
    (x1 x2 x3 : (⟨S3x50000x16x16, .f32⟩ : BufTy).Contents (Elt Ideal)) (n : Fin 50000) (j : Fin 16) :
    val_main_v25 (F := Ideal) x0 x1 x2 x3 x5 (ix3 n j (0 : Fin 1))
      = ∑ k : Fin 16, x3 (ix4 (0 : Fin 3) n j k)
          * MaceSpec.layer (fun a b => x1 (ix4 (0 : Fin 3) n a b)) (fun a b => x2 (ix4 (0 : Fin 3) n a b))
              (fun k => x0 (ix3 n k (0 : Fin 1))) (fun k => x5 (ix3 n k (0 : Fin 1))) k := by
  rw [val_main_v25_apply]
  refine Finset.sum_congr rfl fun k _ => ?_
  rw [show lidx_main_v25 (ix3 n j (0 : Fin 1)) k = ix3 n j k from lidx_at n j k,
    show ridx_main_v25 (ix3 n j (0 : Fin 1)) k = ix3 n k (0 : Fin 1) from ridx_at n j k, v24_at, v8_at]

/-- The second layer's message product. -/
private theorem v28_at (x4 : (⟨S3x50000x16x16, .f32⟩ : BufTy).Contents (Elt Ideal))
    (x8 : (⟨S50000x16x1, .f32⟩ : BufTy).Contents (Elt Ideal)) (n : Fin 50000) (j : Fin 16) :
    val_main_v28 (F := Ideal) x4 x8 (ix3 n j (0 : Fin 1))
      = ∑ k : Fin 16, x4 (ix4 (0 : Fin 3) n j k) * x8 (ix3 n k (0 : Fin 1)) := by
  rw [val_main_v28_apply]
  refine Finset.sum_congr rfl fun k _ => ?_
  rw [show lidx_main_v28 (ix3 n j (0 : Fin 1)) k = ix3 n j k from lidx_at n j k,
    show ridx_main_v28 (ix3 n j (0 : Fin 1)) k = ix3 n k (0 : Fin 1) from ridx_at n j k, v27_at]

/-- The second layer at channel j of node n. -/
private theorem v29_at (x0 x5 x8 : (⟨S50000x16x1, .f32⟩ : BufTy).Contents (Elt Ideal))
    (x1 x2 x3 x4 : (⟨S3x50000x16x16, .f32⟩ : BufTy).Contents (Elt Ideal)) (n : Fin 50000) (j : Fin 16) :
    val_main_v29 (F := Ideal) x0 x1 x2 x3 x4 x5 x8 (ix3 n j (0 : Fin 1))
      = MaceSpec.layer (fun a b => x3 (ix4 (0 : Fin 3) n a b)) (fun a b => x4 (ix4 (0 : Fin 3) n a b))
          (MaceSpec.layer (fun a b => x1 (ix4 (0 : Fin 3) n a b)) (fun a b => x2 (ix4 (0 : Fin 3) n a b))
            (fun k => x0 (ix3 n k (0 : Fin 1))) (fun k => x5 (ix3 n k (0 : Fin 1))))
          (fun k => x8 (ix3 n k (0 : Fin 1))) j := by
  rw [val_main_v29_apply]
  show val_main_v25 (F := Ideal) x0 x1 x2 x3 x5 (ix3 n j (0 : Fin 1)) + val_main_v28 (F := Ideal) x4 x8 (ix3 n j (0 : Fin 1)) = _
  rw [v25_at, v28_at]
  rfl

/-- The transposed row of channel sums the reference feeds to its last product is the row of node values:
    x0 the initial states, x5 and x8 the two rank-0 message arrays, x1 … x4 the four weight arrays. -/
theorem nodeRow_eq (x0 x5 x8 : (⟨S50000x16x1, .f32⟩ : BufTy).Contents (Elt Ideal))
    (x1 x2 x3 x4 : (⟨S3x50000x16x16, .f32⟩ : BufTy).Contents (Elt Ideal)) :
    val_main_v45 (F := Ideal) x0 x1 x2 x3 x4 x5 x8 = MaceSpec.G x0 x5 x8 x1 x2 x3 x4 := by
  funext i
  obtain ⟨a, n, rfl⟩ : ∃ (a : Fin 1) (n : Fin 50000), i = ix2 a n := ⟨i 0, i 1, eq_ix2 i⟩
  obtain rfl : a = 0 := Subsingleton.elim _ _
  rw [val_main_v45_apply, val_main_v44_apply, val_main_cst_1_apply]
  show Ideal.ofBits .f32 0x00000000#32 + _ = _
  rw [Ideal.ofBits_zero_f32, zero_add, MaceSpec.G_ix2]
  unfold MaceSpec.nodeVal MaceSpec.twoLayers
  refine Finset.sum_congr rfl fun j _ => ?_
  have e : idx_main_v44 (idx_main_v45 (ix2 (0 : Fin 1) n)) j = ix3 n j (0 : Fin 1) :=
    funext fun a => Fin.ext (by match a with | ⟨0, _⟩ => rfl | ⟨1, _⟩ => rfl | ⟨2, _⟩ => rfl)
  rw [e, v29_at]

end Cert.ReferenceIdeal.RefValue

end
-- ==== Proof.lean ====
/-
  The certificate of the tiled two-layer channel-mixing program against its whole-array reference, over the extended reals.

  Both programs end with the same product with the transposed prediction weights and the same bias, applied to a row of
  50000 node values. The reference computes node n's value as the sum over 16 channels of two mixing layers on rank 0 of
  each weight array (ranks 1 and 2 never reach the result). The tiled program computes, for each block of 2000 nodes, the
  same two layers on flat weights through two constant 0/1 matrices; products with 0 or 1 and sums of zeros are exact on
  the extended reals and a finite sum of sums may be split, so the two rows agree for every input and the precondition is
  never opened. The idealization rewrote no operation, so there is nothing to preserve.
-/
import proofs.«403991_j52510270161489_4_alg».proof.Defs
import proofs.«403991_j52510270161489_4_alg».proof.Proof.Gen.Kernel
import proofs.«403991_j52510270161489_4_alg».proof.Proof.Gen.Kernel.Skeleton
import proofs.«403991_j52510270161489_4_alg».proof.Proof.Gen.Kernel.Launch
import proofs.«403991_j52510270161489_4_alg».proof.Proof.Gen.Kernel.Points
import proofs.«403991_j52510270161489_4_alg».proof.Proof.Gen.Kernel.Frame
import proofs.«403991_j52510270161489_4_alg».proof.Proof.Gen.KernelIdeal
import proofs.«403991_j52510270161489_4_alg».proof.Proof.Gen.KernelIdeal.Skeleton
import proofs.«403991_j52510270161489_4_alg».proof.Proof.Gen.KernelIdeal.Launch
import proofs.«403991_j52510270161489_4_alg».proof.Proof.Gen.KernelIdeal.Points
import proofs.«403991_j52510270161489_4_alg».proof.Proof.Gen.KernelIdeal.Frame
import proofs.«403991_j52510270161489_4_alg».proof.Proof.Gen.ReferenceIdeal
import proofs.«403991_j52510270161489_4_alg».proof.Proof.Gen.ReferenceIdeal.Run
import proofs.«403991_j52510270161489_4_alg».proof.Proof.Gen.ReferenceIdeal.Read
import proofs.«403991_j52510270161489_4_alg».proof.Proof.Gen.Pre_finite_inputs
import proofs.«403991_j52510270161489_4_alg».proof.Proof.Spec
import proofs.«403991_j52510270161489_4_alg».proof.Proof.KValue
import proofs.«403991_j52510270161489_4_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the shared tail of the same row of node values. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v49_eq]
  unfold Cert.ReferenceIdeal.Read.val_main_v49 Cert.ReferenceIdeal.Read.val_main_v47 Cert.ReferenceIdeal.Read.val_main_v46
    Cert.ReferenceIdeal.Read.val_main_v48
  rw [Cert.ReferenceIdeal.RefValue.nodeRow_eq, a0, a1, a2, a3, a4, a5, a8, a11, a12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
